-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x800000 : Shape := ⟨2, ![2, 800000]⟩
abbrev S10000 : Shape := ⟨1, ![10000]⟩
abbrev S256x256 : Shape := ⟨2, ![256, 256]⟩
abbrev S256 : Shape := ⟨1, ![256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel
  bcast_S_S256 : S_.BroadcastsInDim S256 (![] : Fin 0 → Fin S256.rank)
  reducesTo_S256_S_d0 : S256.ReducesTo [0] S_
  bcast_S_S100000x1 : S_.BroadcastsInDim S100000x1 (![] : Fin 0 → Fin S100000x1.rank)
  reducesTo_S100000x1_S_d0_1 : S100000x1.ReducesTo [0, 1] S_

variable [Facts]

def fn_part1 {F : FTy → Type} [FloatOps F] (main_arg0 : IVec S100000x1 32) (main_arg7 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg7
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_c_8 : IVec S_ 32 := constantI S_ 32 0#32
  let main_v24 : IVec S100000x1 32 := broadcastInDim S100000x1 ![] bcast_S_S100000x1 main_c_8
  let main_v25 : IVec S100000x1 1 := cmpi .sge main_arg0 main_v24
  let main_c_9 : IVec S_ 32 := constantI S_ 32 256#32
  let main_v26 : IVec S100000x1 32 := broadcastInDim S100000x1 ![] bcast_S_S100000x1 main_c_9
  let main_v27 : IVec S100000x1 1 := cmpi .slt main_arg0 main_v26
  let main_v28 : IVec S100000x1 1 := andi main_v25 main_v27
  let main_c_10 : IVec S_ 1 := constantI S_ 1 1#1
  let main_v29 : IVec S_ 1 := (fun x v => Host.reduce IntOp.andi x v reducesTo_S100000x1_S_d0_1 h_S_) main_v28 main_c_10
  let main_v30 : IVec S_ 1 := andi main_v23 main_v29
  main_v30

def fn {F : FTy → Type} [FloatOps F] (main_arg0 : IVec S100000x1 32) (main_arg1 : IVec S2x800000 32) (main_arg2 : IVec S10000 32) (main_arg3 : FVec F S256x256 .f32) (main_arg4 : FVec F S256x256 .f32) (main_arg5 : FVec F S256 .f32) (main_arg6 : FVec F S256x256 .f32) (main_arg7 : FVec F S256 .f32) : IVec S_ 1 :=
  let main_v0 : FVec F S256x256 .f32 := Host.absf main_arg3
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  let main_v4 : FVec F S256x256 .f32 := Host.absf main_arg4
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg5
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg6
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg0 main_arg7 main_v13 main_v16
-- ==== Kernel.lean ====
abbrev S100000x1 : Shape := ⟨2, ![100000, 1]⟩
abbrev S2x800000 : Shape := ⟨2, ![2, 800000]⟩
abbrev S10000 : Shape := ⟨1, ![10000]⟩
abbrev S256x256 : Shape := ⟨2, ![256, 256]⟩
abbrev S256 : Shape := ⟨1, ![256]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S100000x256 : Shape := ⟨2, ![100000, 256]⟩
abbrev S1000x1 : Shape := ⟨2, ![1000, 1]⟩
abbrev S1000x256 : Shape := ⟨2, ![1000, 256]⟩
abbrev S900000x256 : Shape := ⟨2, ![900000, 256]⟩
abbrev S1x256 : Shape := ⟨2, ![1, 256]⟩
abbrev S10000x1 : Shape := ⟨2, ![10000, 1]⟩
abbrev S10000x256 : Shape := ⟨2, ![10000, 256]⟩

abbrev nBuf : Space → Nat
  | .hbm => 113
  | .vmem => 11
  | .smem => 0
  | _ => 0

abbrev bufTy : (tb : Table) → Fin (tcTables nBuf tb) → BufTy
  | .hbm, ⟨0, _⟩ => ⟨S100000x1, .i32⟩
  | .hbm, ⟨1, _⟩ => ⟨S2x800000, .i32⟩
  | .hbm, ⟨2, _⟩ => ⟨S10000, .i32⟩
  | .hbm, ⟨3, _⟩ => ⟨S256x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S100000, .i32⟩
  | .hbm, ⟨9, _⟩ => ⟨S1x800000, .i32⟩
  | .hbm, ⟨10, _⟩ => ⟨S800000, .i32⟩
  | .hbm, ⟨11, _⟩ => ⟨S900000, .i32⟩
  | .hbm, ⟨12, _⟩ => ⟨S1x800000, .i32⟩
  | .hbm, ⟨13, _⟩ => ⟨S800000, .i32⟩
  | .hbm, ⟨14, _⟩ => ⟨S900000, .i32⟩
  | .hbm, ⟨15, _⟩ => ⟨S_, .f32⟩
  | .hbm, ⟨16, _⟩ => ⟨S900000, .f32⟩
  | .hbm, ⟨17, _⟩ => ⟨S_, .f32⟩
  | .hbm, ⟨18, _⟩ => ⟨S100000, .f32⟩
  | .hbm, ⟨19, _⟩ => ⟨S900000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S900000, .i32⟩
  | .hbm, ⟨31, _⟩ => ⟨S900000, .i1⟩
  | .hbm, ⟨32, _⟩ => ⟨S_, .i32⟩
  | .hbm, ⟨33, _⟩ => ⟨S900000, .i32⟩
  | .hbm, ⟨34, _⟩ => ⟨S900000, .i32⟩
  | .hbm, ⟨35, _⟩ => ⟨S900000, .i32⟩
  | .hbm, ⟨36, _⟩ => ⟨S900000x1, .i32⟩
  | .hbm, ⟨37, _⟩ => ⟨S900000, .f32⟩
  | .hbm, ⟨38, _⟩ => ⟨S_, .i32⟩
  | .hbm, ⟨39, _⟩ => ⟨S900000, .i32⟩
  | .hbm, ⟨40, _⟩ => ⟨S900000, .i1⟩
  | .hbm, ⟨41, _⟩ => ⟨S_, .i32⟩
  | .hbm, ⟨42, _⟩ => ⟨S900000, .i32⟩
  | .hbm, ⟨43, _⟩ => ⟨S900000, .i32⟩
  | .hbm, ⟨44, _⟩ => ⟨S900000, .i32⟩
  | .hbm, ⟨45, _⟩ => ⟨S900000x1, .i32⟩
  | .hbm, ⟨46, _⟩ => ⟨S900000, .f32⟩
  | .hbm, ⟨47, _⟩ => ⟨S900000, .f32⟩
  | .hbm, ⟨48, _⟩ => ⟨S256x256, .f32⟩
  | .hbm, ⟨49, _⟩ => ⟨S256x256, .bf16⟩
  | .hbm, ⟨50, _⟩ => ⟨S100000x256, .f32⟩
  | .hbm, ⟨51, _⟩ => ⟨S_, .i32⟩
  | .hbm, ⟨52, _⟩ => ⟨S900000, .i32⟩
  | .hbm, ⟨53, _⟩ => ⟨S900000, .i1⟩
  | .hbm, ⟨54, _⟩ => ⟨S_, .i32⟩
  | .hbm, ⟨55, _⟩ => ⟨S900000, .i32⟩
  | .hbm, ⟨56, _⟩ => ⟨S900000, .i32⟩
  | .hbm, ⟨57, _⟩ => ⟨S900000, .i32⟩
  | .hbm, ⟨58, _⟩ => ⟨S900000x1, .i32⟩
  | .hbm, ⟨59, _⟩ => ⟨S900000x256, .f32⟩
  | .hbm, ⟨60, _⟩ => ⟨S900000x1, .f32⟩
  | .hbm, ⟨61, _⟩ => ⟨S900000x256, .f32⟩
  | .hbm, ⟨62, _⟩ => ⟨S900000x256, .f32⟩
  | .hbm, ⟨63, _⟩ => ⟨S_, .f32⟩
  | .hbm, ⟨64, _⟩ => ⟨S100000x256, .f32⟩
  | .hbm, ⟨65, _⟩ => ⟨S900000x1, .i32⟩
  | .hbm, ⟨66, _⟩ => ⟨S100000x256, .f32⟩
  | .hbm, ⟨67, _⟩ => ⟨S256x256, .bf16⟩
  | .hbm, ⟨68, _⟩ => ⟨S1x256, .f32⟩
  | .hbm, ⟨69, _⟩ => ⟨S100000x256, .f32⟩
  | .hbm, ⟨70, _⟩ => ⟨S_, .i32⟩
  | .hbm, ⟨71, _⟩ => ⟨S900000, .i32⟩
  | .hbm, ⟨72, _⟩ => ⟨S900000, .i1⟩
  | .hbm, ⟨73, _⟩ => ⟨S_, .i32⟩
  | .hbm, ⟨74, _⟩ => ⟨S900000, .i32⟩
  | .hbm, ⟨75, _⟩ => ⟨S900000, .i32⟩
  | .hbm, ⟨76, _⟩ => ⟨S900000, .i32⟩
  | .hbm, ⟨77, _⟩ => ⟨S900000x1, .i32⟩
  | .hbm, ⟨78, _⟩ => ⟨S900000x256, .f32⟩
  | .hbm, ⟨79, _⟩ => ⟨S900000x1, .f32⟩
  | .hbm, ⟨80, _⟩ => ⟨S900000x256, .f32⟩
  | .hbm, ⟨81, _⟩ => ⟨S900000x256, .f32⟩
  | .hbm, ⟨82, _⟩ => ⟨S_, .f32⟩
  | .hbm, ⟨83, _⟩ => ⟨S100000x256, .f32⟩
  | .hbm, ⟨84, _⟩ => ⟨S900000x1, .i32⟩
  | .hbm, ⟨85, _⟩ => ⟨S100000x256, .f32⟩
  | .hbm, ⟨86, _⟩ => ⟨S1x256, .f32⟩
  | .hbm, ⟨87, _⟩ => ⟨S100000x256, .f32⟩
  | .hbm, ⟨88, _⟩ => ⟨S100000x256, .f32⟩
  | .hbm, ⟨89, _⟩ => ⟨S_, .i32⟩
  | .hbm, ⟨90, _⟩ => ⟨S10000, .i32⟩
  | .hbm, ⟨91, _⟩ => ⟨S10000, .i1⟩
  | .hbm, ⟨92, _⟩ => ⟨S_, .i32⟩
  | .hbm, ⟨93, _⟩ => ⟨S10000, .i32⟩
  | .hbm, ⟨94, _⟩ => ⟨S10000, .i32⟩
  | .hbm, ⟨95, _⟩ => ⟨S10000, .i32⟩
  | .hbm, ⟨96, _⟩ => ⟨S10000x1, .i32⟩
  | .hbm, ⟨97, _⟩ => ⟨S10000x256, .f32⟩
  | .hbm, ⟨98, _⟩ => ⟨S_, .f32⟩
  | .hbm, ⟨99, _⟩ => ⟨S10000, .f32⟩
  | .hbm, ⟨100, _⟩ => ⟨S_, .f32⟩
  | .hbm, ⟨101, _⟩ => ⟨S10000, .f32⟩
  | .hbm, ⟨102, _⟩ => ⟨S10000, .f32⟩
  | .hbm, ⟨103, _⟩ => ⟨S10000x1, .f32⟩
  | .hbm, ⟨104, _⟩ => ⟨S10000x256, .f32⟩
  | .hbm, ⟨105, _⟩ => ⟨S10000x256, .f32⟩
  | .hbm, ⟨106, _⟩ => ⟨S10000x256, .f32⟩
  | .hbm, ⟨107, _⟩ => ⟨S_, .f32⟩
  | .hbm, ⟨108, _⟩ => ⟨S10000, .f32⟩
  | .hbm, ⟨109, _⟩ => ⟨S10000x1, .f32⟩
  | .hbm, ⟨110, _⟩ => ⟨S10000x1, .f32⟩
  | .hbm, ⟨111, _⟩ => ⟨S10000x256, .f32⟩
  | .hbm, ⟨112, _⟩ => ⟨S10000x256, .f32⟩
  | .local _ .vmem, ⟨0, _⟩ => ⟨S1000x1, .i32⟩
  | .local _ .vmem, ⟨1, _⟩ => ⟨S1000x1, .i32⟩
  | .local _ .vmem, ⟨2, _⟩ => ⟨S256x256, .bf16⟩
  | .local _ .vmem, ⟨3, _⟩ => ⟨S1000x256, .f32⟩
  | .local _ .vmem, ⟨4, _⟩ => ⟨S1000x256, .f32⟩
  | .local _ .vmem, ⟨5, _⟩ => ⟨S1000x256, .f32⟩
  | .local _ .vmem, ⟨6, _⟩ => ⟨S1000x256, .f32⟩
  | .local _ .vmem, ⟨7, _⟩ => ⟨S1x256, .f32⟩
  | .local _ .vmem, ⟨8, _⟩ => ⟨S256x256, .bf16⟩
  | .local _ .vmem, ⟨9, _⟩ => ⟨S1000x256, .f32⟩
  | .local _ .vmem, ⟨10, _⟩ => ⟨S1000x256, .f32⟩
  | _, _ => ⟨S100000x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_12 : Ref sig .tc := ⟨.hbm, 89, rfl⟩
abbrev main_v65 : Ref sig .tc := ⟨.hbm, 90, rfl⟩
abbrev main_v66 : Ref sig .tc := ⟨.hbm, 91, rfl⟩
abbrev main_c_13 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_call1_cst : Ref sig .tc := ⟨.hbm, 98, rfl⟩
abbrev main_call1_v0 : Ref sig .tc := ⟨.hbm, 99, rfl⟩
abbrev main_call1_cst_0 : Ref sig .tc := ⟨.hbm, 100, rfl⟩
abbrev main_call1_v1 : Ref sig .tc := ⟨.hbm, 101, rfl⟩
abbrev main_call1_v2 : Ref sig .tc := ⟨.hbm, 102, rfl⟩
abbrev main_call1_v3 : Ref sig .tc := ⟨.hbm, 103, rfl⟩
abbrev main_call1_v4 : Ref sig .tc := ⟨.hbm, 104, rfl⟩
abbrev main_call1_v5 : Ref sig .tc := ⟨.hbm, 105, rfl⟩
abbrev main_call1_v6 : Ref sig .tc := ⟨.hbm, 106, rfl⟩
abbrev main_call1_cst_1 : Ref sig .tc := ⟨.hbm, 107, rfl⟩
abbrev main_call1_v7 : Ref sig .tc := ⟨.hbm, 108, rfl⟩
abbrev main_call1_v8 : Ref sig .tc := ⟨.hbm, 109, rfl⟩
abbrev main_call1_v9 : Ref sig .tc := ⟨.hbm, 110, rfl⟩
abbrev main_call1_v10 : Ref sig .tc := ⟨.hbm, 111, rfl⟩
abbrev main_v72 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bitsLt_bf16_f32 : FTy.bits .bf16 < FTy.bits .f32
  inb_S1000x1_S1000x1_0_0 : ∀ a, (![0, 0] : Fin 2 → Nat) a + S1000x1.size a ≤ S1000x1.size a
  h_S1000x1 : 0 < S1000x1.numel
  iota_S1000x256_d1_w32 : S1000x256.Iotas .tc 32 [1]
  broadcasts_S1000x1_S1000x256 : S1000x1.Broadcasts S1000x256
  natLt_1_32 : 1 < 32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1000x256_S1000x256_0_0 : ∀ a, (![0, 0] : Fin 2 → Nat) a + S1000x256.size a ≤ S1000x256.size a
  h_S1000x256 : 0 < S1000x256.numel
  bcast_S900000x1_S900000x256_0_1 : S900000x1.BroadcastsInDim S900000x256 (![0, 1] : Fin 2 → Fin S900000x256.rank)
  bcast_S_S100000x256 : S_.BroadcastsInDim S100000x256 (![] : Fin 0 → Fin S100000x256.rank)
  shapeCasts_S256_S1x256 : S256.ShapeCasts S1x256
  shapeCasts_S1000x256_S1000x256 : S1000x256.ShapeCasts S1000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S10000 : S_.BroadcastsInDim S10000 (![] : Fin 0 → Fin S10000.rank)
  bcast_S10000_S10000x1_0 : S10000.BroadcastsInDim S10000x1 (![0] : Fin 1 → Fin S10000x1.rank)
  reducesTo_S10000x256_S10000_d1 : S10000x256.ReducesTo [1] S10000
  h_S_ : 0 < S_.numel
  bcast_S10000x1_S10000x256_0_1 : S10000x1.BroadcastsInDim S10000x256 (![0, 1] : Fin 2 → Fin S10000x256.rank)
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S256x256_S256x256_S256x256_1_0_0_1_n_n_wf : DotDims.WF S256x256 S256x256 S256x256 [1] [0] [0] [1] [] []
  dot_S1000x256_S256x256_S1000x256_1_0_0_1_n_n_wf : DotDims.WF S1000x256 S256x256 S1000x256 [1] [0] [0] [1] [] []
  gather_S100000x256_S900000x1_S900000x256_1_0_n_n_0_1_1256_wf : GatherDims.WF S100000x256 S900000x1 S900000x256 [1] [0] [] [0] [] 1 ![1, 256]
  scatter_S100000x256_S900000x1_S900000x256_1_0_0_1_wf : ScatterDims.WF S100000x256 S900000x1 S900000x256 [1] [0] [0] 1
  gather_S100000x256_S10000x1_S10000x256_1_0_n_n_0_1_1256_wf : GatherDims.WF S100000x256 S10000x1 S10000x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1.size a ≤ S100000x1.size a
  hwx0_0 : ∀ i : grid0.Coords, EltTy.bits .i32 = 32 ∨ (Rect.block (s := S100000x1) S1000x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S100000x256.size a
  hwx0_2 : ∀ i : grid0.Coords, EltTy.bits .f32 = 32 ∨ (Rect.block (s := S100000x256) S1000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S100000x256.size a
  hwx1_0 : ∀ i : grid1.Coords, EltTy.bits .f32 = 32 ∨ (Rect.block (s := S100000x256) S1000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x256.size a ≤ S100000x256.size a
  hwx1_3 : ∀ i : grid1.Coords, EltTy.bits .f32 = 32 ∨ (Rect.block (s := S100000x256) S1000x256.size (cc1_transform_3 i) (hinb1_3 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def gather_S100000x256_S900000x1_S900000x256_1_0_n_n_0_1_1256 : GatherDims S100000x256 S900000x1 S900000x256 where
  offsetDims := [1]
  collapsedSliceDims := [0]
  operandBatchingDims := []
  startIndicesBatchingDims := []
  startIndexMap := [0]
  indexVectorDim := 1
  sliceSizes := ![1, 256]
  wf := gather_S100000x256_S900000x1_S900000x256_1_0_n_n_0_1_1256_wf
def scatter_S100000x256_S900000x1_S900000x256_1_0_0_1 : ScatterDims S100000x256 S900000x1 S900000x256 where
  updateWindowDims := [1]
  insertedWindowDims := [0]
  scatterDimsToOperandDims := [0]
  indexVectorDim := 1
  wf := scatter_S100000x256_S900000x1_S900000x256_1_0_0_1_wf
def gather_S100000x256_S10000x1_S10000x256_1_0_n_n_0_1_1256 : GatherDims S100000x256 S10000x1 S10000x256 where
  offsetDims := [1]
  collapsedSliceDims := [0]
  operandBatchingDims := []
  startIndicesBatchingDims := []
  startIndexMap := [0]
  indexVectorDim := 1
  sliceSizes := ![1, 256]
  wf := gather_S100000x256_S10000x1_S10000x256_1_0_n_n_0_1_1256_wf

abbrev win0_0 : Pipeline.Window sig grid0 :=
  Pipeline.Window.ofSpec (Memref.whole main_arg0) S1000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x1 : Shape := ⟨2, ![100000, 1]⟩
abbrev S2x800000 : Shape := ⟨2, ![2, 800000]⟩
abbrev S10000 : Shape := ⟨1, ![10000]⟩
abbrev S256x256 : Shape := ⟨2, ![256, 256]⟩
abbrev S256 : Shape := ⟨1, ![256]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S100000x256 : Shape := ⟨2, ![100000, 256]⟩
abbrev S900000x256 : Shape := ⟨2, ![900000, 256]⟩
abbrev S1x256 : Shape := ⟨2, ![1, 256]⟩
abbrev S10000x1 : Shape := ⟨2, ![10000, 1]⟩
abbrev S10000x256 : Shape := ⟨2, ![10000, 256]⟩

abbrev nBuf : Space → Nat
  | .hbm => 125
  | .vmem => 0
  | .smem => 0
  | _ => 0

abbrev bufTy : (tb : Table) → Fin (tcTables nBuf tb) → BufTy
  | .hbm, ⟨0, _⟩ => ⟨S100000x1, .i32⟩
  | .hbm, ⟨1, _⟩ => ⟨S2x800000, .i32⟩
  | .hbm, ⟨2, _⟩ => ⟨S10000, .i32⟩
  | .hbm, ⟨3, _⟩ => ⟨S256x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S100000, .i32⟩
  | .hbm, ⟨9, _⟩ => ⟨S1x800000, .i32⟩
  | .hbm, ⟨10, _⟩ => ⟨S800000, .i32⟩
  | .hbm, ⟨11, _⟩ => ⟨S900000, .i32⟩
  | .hbm, ⟨12, _⟩ => ⟨S1x800000, .i32⟩
  | .hbm, ⟨13, _⟩ => ⟨S800000, .i32⟩
  | .hbm, ⟨14, _⟩ => ⟨S900000, .i32⟩
  | .hbm, ⟨15, _⟩ => ⟨S_, .f32⟩
  | .hbm, ⟨16, _⟩ => ⟨S900000, .f32⟩
  | .hbm, ⟨17, _⟩ => ⟨S_, .f32⟩
  | .hbm, ⟨18, _⟩ => ⟨S100000, .f32⟩
  | .hbm, ⟨19, _⟩ => ⟨S900000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S900000, .i32⟩
  | .hbm, ⟨31, _⟩ => ⟨S900000, .i1⟩
  | .hbm, ⟨32, _⟩ => ⟨S_, .i32⟩
  | .hbm, ⟨33, _⟩ => ⟨S900000, .i32⟩
  | .hbm, ⟨34, _⟩ => ⟨S900000, .i32⟩
  | .hbm, ⟨35, _⟩ => ⟨S900000, .i32⟩
  | .hbm, ⟨36, _⟩ => ⟨S900000x1, .i32⟩
  | .hbm, ⟨37, _⟩ => ⟨S900000, .f32⟩
  | .hbm, ⟨38, _⟩ => ⟨S_, .i32⟩
  | .hbm, ⟨39, _⟩ => ⟨S900000, .i32⟩
  | .hbm, ⟨40, _⟩ => ⟨S900000, .i1⟩
  | .hbm, ⟨41, _⟩ => ⟨S_, .i32⟩
  | .hbm, ⟨42, _⟩ => ⟨S900000, .i32⟩
  | .hbm, ⟨43, _⟩ => ⟨S900000, .i32⟩
  | .hbm, ⟨44, _⟩ => ⟨S900000, .i32⟩
  | .hbm, ⟨45, _⟩ => ⟨S900000x1, .i32⟩
  | .hbm, ⟨46, _⟩ => ⟨S900000, .f32⟩
  | .hbm, ⟨47, _⟩ => ⟨S900000, .f32⟩
  | .hbm, ⟨48, _⟩ => ⟨S100000, .i32⟩
  | .hbm, ⟨49, _⟩ => ⟨S_, .i32⟩
  | .hbm, ⟨50, _⟩ => ⟨S100000, .i32⟩
  | .hbm, ⟨51, _⟩ => ⟨S100000, .i1⟩
  | .hbm, ⟨52, _⟩ => ⟨S_, .i32⟩
  | .hbm, ⟨53, _⟩ => ⟨S100000, .i32⟩
  | .hbm, ⟨54, _⟩ => ⟨S100000, .i32⟩
  | .hbm, ⟨55, _⟩ => ⟨S100000, .i32⟩
  | .hbm, ⟨56, _⟩ => ⟨S100000x1, .i32⟩
  | .hbm, ⟨57, _⟩ => ⟨S100000x256, .f32⟩
  | .hbm, ⟨58, _⟩ => ⟨S100000x256, .f32⟩
  | .hbm, ⟨59, _⟩ => ⟨S_, .i32⟩
  | .hbm, ⟨60, _⟩ => ⟨S900000, .i32⟩
  | .hbm, ⟨61, _⟩ => ⟨S900000, .i1⟩
  | .hbm, ⟨62, _⟩ => ⟨S_, .i32⟩
  | .hbm, ⟨63, _⟩ => ⟨S900000, .i32⟩
  | .hbm, ⟨64, _⟩ => ⟨S900000, .i32⟩
  | .hbm, ⟨65, _⟩ => ⟨S900000, .i32⟩
  | .hbm, ⟨66, _⟩ => ⟨S900000x1, .i32⟩
  | .hbm, ⟨67, _⟩ => ⟨S900000x256, .f32⟩
  | .hbm, ⟨68, _⟩ => ⟨S900000x1, .f32⟩
  | .hbm, ⟨69, _⟩ => ⟨S900000x256, .f32⟩
  | .hbm, ⟨70, _⟩ => ⟨S900000x256, .f32⟩
  | .hbm, ⟨71, _⟩ => ⟨S_, .f32⟩
  | .hbm, ⟨72, _⟩ => ⟨S100000x256, .f32⟩
  | .hbm, ⟨73, _⟩ => ⟨S900000x1, .i32⟩
  | .hbm, ⟨74, _⟩ => ⟨S100000x256, .f32⟩
  | .hbm, ⟨75, _⟩ => ⟨S1x256, .f32⟩
  | .hbm, ⟨76, _⟩ => ⟨S100000x256, .f32⟩
  | .hbm, ⟨77, _⟩ => ⟨S100000x256, .f32⟩
  | .hbm, ⟨78, _⟩ => ⟨S_, .f32⟩
  | .hbm, ⟨79, _⟩ => ⟨S100000x256, .f32⟩
  | .hbm, ⟨80, _⟩ => ⟨S100000x256, .f32⟩
  | .hbm, ⟨81, _⟩ => ⟨S100000x256, .f32⟩
  | .hbm, ⟨82, _⟩ => ⟨S_, .i32⟩
  | .hbm, ⟨83, _⟩ => ⟨S900000, .i32⟩
  | .hbm, ⟨84, _⟩ => ⟨S900000, .i1⟩
  | .hbm, ⟨85, _⟩ => ⟨S_, .i32⟩
  | .hbm, ⟨86, _⟩ => ⟨S900000, .i32⟩
  | .hbm, ⟨87, _⟩ => ⟨S900000, .i32⟩
  | .hbm, ⟨88, _⟩ => ⟨S900000, .i32⟩
  | .hbm, ⟨89, _⟩ => ⟨S900000x1, .i32⟩
  | .hbm, ⟨90, _⟩ => ⟨S900000x256, .f32⟩
  | .hbm, ⟨91, _⟩ => ⟨S900000x1, .f32⟩
  | .hbm, ⟨92, _⟩ => ⟨S900000x256, .f32⟩
  | .hbm, ⟨93, _⟩ => ⟨S900000x256, .f32⟩
  | .hbm, ⟨94, _⟩ => ⟨S_, .f32⟩
  | .hbm, ⟨95, _⟩ => ⟨S100000x256, .f32⟩
  | .hbm, ⟨96, _⟩ => ⟨S900000x1, .i32⟩
  | .hbm, ⟨97, _⟩ => ⟨S100000x256, .f32⟩
  | .hbm, ⟨98, _⟩ => ⟨S1x256, .f32⟩
  | .hbm, ⟨99, _⟩ => ⟨S100000x256, .f32⟩
  | .hbm, ⟨100, _⟩ => ⟨S100000x256, .f32⟩
  | .hbm, ⟨101, _⟩ => ⟨S_, .i32⟩
  | .hbm, ⟨102, _⟩ => ⟨S10000, .i32⟩
  | .hbm, ⟨103, _⟩ => ⟨S10000, .i1⟩
  | .hbm, ⟨104, _⟩ => ⟨S_, .i32⟩
  | .hbm, ⟨105, _⟩ => ⟨S10000, .i32⟩
  | .hbm, ⟨106, _⟩ => ⟨S10000, .i32⟩
  | .hbm, ⟨107, _⟩ => ⟨S10000, .i32⟩
  | .hbm, ⟨108, _⟩ => ⟨S10000x1, .i32⟩
  | .hbm, ⟨109, _⟩ => ⟨S10000x256, .f32⟩
  | .hbm, ⟨110, _⟩ => ⟨S_, .f32⟩
  | .hbm, ⟨111, _⟩ => ⟨S10000, .f32⟩
  | .hbm, ⟨112, _⟩ => ⟨S_, .f32⟩
  | .hbm, ⟨113, _⟩ => ⟨S10000, .f32⟩
  | .hbm, ⟨114, _⟩ => ⟨S10000, .f32⟩
  | .hbm, ⟨115, _⟩ => ⟨S10000x1, .f32⟩
  | .hbm, ⟨116, _⟩ => ⟨S10000x256, .f32⟩
  | .hbm, ⟨117, _⟩ => ⟨S10000x256, .f32⟩
  | .hbm, ⟨118, _⟩ => ⟨S10000x256, .f32⟩
  | .hbm, ⟨119, _⟩ => ⟨S_, .f32⟩
  | .hbm, ⟨120, _⟩ => ⟨S10000, .f32⟩
  | .hbm, ⟨121, _⟩ => ⟨S10000x1, .f32⟩
  | .hbm, ⟨122, _⟩ => ⟨S10000x1, .f32⟩
  | .hbm, ⟨123, _⟩ => ⟨S10000x256, .f32⟩
  | .hbm, ⟨124, _⟩ => ⟨S10000x256, .f32⟩
  | _, _ => ⟨S100000x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_8 : Ref sig .tc := ⟨.hbm, 59, rfl⟩
abbrev main_v39 : Ref sig .tc := ⟨.hbm, 60, rfl⟩
abbrev main_v40 : Ref sig .tc := ⟨.hbm, 61, rfl⟩
abbrev main_c_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_call1_cst : Ref sig .tc := ⟨.hbm, 78, rfl⟩
abbrev main_call1_v0 : Ref sig .tc := ⟨.hbm, 79, rfl⟩
abbrev main_v55 : Ref sig .tc := ⟨.hbm, 80, rfl⟩
abbrev main_v56 : Ref sig .tc := ⟨.hbm, 81, rfl⟩
abbrev main_c_11 : Ref sig .tc := ⟨.hbm, 82, rfl⟩
abbrev main_v57 : Ref sig .tc := ⟨.hbm, 83, rfl⟩
abbrev main_v58 : Ref sig .tc := ⟨.hbm, 84, rfl⟩
abbrev main_c_12 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_13 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_14 : Ref sig .tc := ⟨.hbm, 101, rfl⟩
abbrev main_v73 : Ref sig .tc := ⟨.hbm, 102, rfl⟩
abbrev main_v74 : Ref sig .tc := ⟨.hbm, 103, rfl⟩
abbrev main_c_15 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_call2_cst : Ref sig .tc := ⟨.hbm, 110, rfl⟩
abbrev main_call2_v0 : Ref sig .tc := ⟨.hbm, 111, rfl⟩
abbrev main_call2_cst_0 : Ref sig .tc := ⟨.hbm, 112, rfl⟩
abbrev main_call2_v1 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_v5 : Ref sig .tc := ⟨.hbm, 117, rfl⟩
abbrev main_call2_v6 : Ref sig .tc := ⟨.hbm, 118, rfl⟩
abbrev main_call2_cst_1 : Ref sig .tc := ⟨.hbm, 119, rfl⟩
abbrev main_call2_v7 : Ref sig .tc := ⟨.hbm, 120, rfl⟩
abbrev main_call2_v8 : Ref sig .tc := ⟨.hbm, 121, rfl⟩
abbrev main_call2_v9 : Ref sig .tc := ⟨.hbm, 122, rfl⟩
abbrev main_call2_v10 : Ref sig .tc := ⟨.hbm, 123, rfl⟩
abbrev main_v80 : Ref sig .tc := ⟨.hbm, 124, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  shapeCasts_S100000x1_S100000 : S100000x1.ShapeCasts S100000
  bcast_S100000_S100000x1_0 : S100000.BroadcastsInDim S100000x1 (![0] : Fin 1 → Fin S100000x1.rank)
  bcast_S900000x1_S900000x256_0_1 : S900000x1.BroadcastsInDim S900000x256 (![0, 1] : Fin 2 → Fin S900000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S10000 : S_.BroadcastsInDim S10000 (![] : Fin 0 → Fin S10000.rank)
  bcast_S10000_S10000x1_0 : S10000.BroadcastsInDim S10000x1 (![0] : Fin 1 → Fin S10000x1.rank)
  reducesTo_S10000x256_S10000_d1 : S10000x256.ReducesTo [1] S10000
  h_S_ : 0 < S_.numel
  bcast_S10000x1_S10000x256_0_1 : S10000x1.BroadcastsInDim S10000x256 (![0, 1] : Fin 2 → Fin S10000x256.rank)
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  gather_S256x256_S100000x1_S100000x256_1_0_n_n_0_1_1256_wf : GatherDims.WF S256x256 S100000x1 S100000x256 [1] [0] [] [0] [] 1 ![1, 256]
  dot_S100000x256_S256x256_S100000x256_1_0_0_1_n_n_wf : DotDims.WF S100000x256 S256x256 S100000x256 [1] [0] [0] [1] [] []
  gather_S100000x256_S900000x1_S900000x256_1_0_n_n_0_1_1256_wf : GatherDims.WF S100000x256 S900000x1 S900000x256 [1] [0] [] [0] [] 1 ![1, 256]
  scatter_S100000x256_S900000x1_S900000x256_1_0_0_1_wf : ScatterDims.WF S100000x256 S900000x1 S900000x256 [1] [0] [0] 1
  gather_S100000x256_S10000x1_S10000x256_1_0_n_n_0_1_1256_wf : GatherDims.WF S100000x256 S10000x1 S10000x256 [1] [0] [] [0] [] 1 ![1, 256]

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S256x256_S100000x1_S100000x256_1_0_n_n_0_1_1256 : GatherDims S256x256 S100000x1 S100000x256 where
  offsetDims := [1]
  collapsedSliceDims := [0]
  operandBatchingDims := []
  startIndicesBatchingDims := []
  startIndexMap := [0]
  indexVectorDim := 1
  sliceSizes := ![1, 256]
  wf := gather_S256x256_S100000x1_S100000x256_1_0_n_n_0_1_1256_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def gather_S100000x256_S900000x1_S900000x256_1_0_n_n_0_1_1256 : GatherDims S100000x256 S900000x1 S900000x256 where
  offsetDims := [1]
  collapsedSliceDims := [0]
  operandBatchingDims := []
  startIndicesBatchingDims := []
  startIndexMap := [0]
  indexVectorDim := 1
  sliceSizes := ![1, 256]
  wf := gather_S100000x256_S900000x1_S900000x256_1_0_n_n_0_1_1256_wf
def scatter_S100000x256_S900000x1_S900000x256_1_0_0_1 : ScatterDims S100000x256 S900000x1 S900000x256 where
  updateWindowDims := [1]
  insertedWindowDims := [0]
  scatterDimsToOperandDims := [0]
  indexVectorDim := 1
  wf := scatter_S100000x256_S900000x1_S900000x256_1_0_0_1_wf
def gather_S100000x256_S10000x1_S10000x256_1_0_n_n_0_1_1256 : GatherDims S100000x256 S10000x1 S10000x256 where
  offsetDims := [1]
  collapsedSliceDims := [0]
  operandBatchingDims := []
  startIndicesBatchingDims := []
  startIndexMap := [0]
  indexVectorDim := 1
  sliceSizes := ![1, 256]
  wf := gather_S100000x256_S10000x1_S10000x256_1_0_n_n_0_1_1256_wf

class Facts : Prop extends Facts₀ where

variable [Facts]
-- ==== Proof.Shared.lean ====
/-
  What the two programs share. Both compute a two-layer graph convolution: a layer takes a feature matrix
  hw [100000, 256], gathers its rows at the edges' sources (a negative source wrapped by 100000), scales row e by the
  edge weight nrm e, and adds the rows into their destinations; the readout adds the bias, gathers the masked rows and
  takes a row-wise log-softmax. The programs differ only in how the two feature matrices are produced, so the layer
  and the readout are named here once, as functions of the feature matrix and of the edge data, and the reference's
  stages are stated over them.
-/
import proofs.«428986_j44272522887509_1_alg».proof.Proof.RefRead

noncomputable section

namespace Cert.Shared

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

/-- One layer: rows of `hw` gathered at the sources, scaled by the edge weights, summed into the destinations. -/
def layer (hw : (⟨S100000x256, .f32⟩ : BufTy).Contents (Elt F)) (src dst : (⟨S900000, .i32⟩ : BufTy).Contents (Elt F))
    (nrm : (⟨S900000, .f32⟩ : BufTy).Contents (Elt F)) : (⟨S100000x256, .f32⟩ : BufTy).Contents (Elt F) :=
  Host.scatterAdd scatter_S100000x256_S900000x1_S900000x256_1_0_0_1
    (broadcastInDim S100000x256 ![] bcast_S_S100000x256 (constant S_ .f32 0x00000000#32))
    (broadcastInDim S900000x1 ![0] bcast_S900000_S900000x1_0 dst)
    (mulf
      (Host.gather gather_S100000x256_S900000x1_S900000x256_1_0_n_n_0_1_1256 hw
        (broadcastInDim S900000x1 ![0] bcast_S900000_S900000x1_0
          (select (cmpi .slt src (broadcastInDim S900000 ![] bcast_S_S900000 (constantI S_ 32 0#32)))
            (addi src (broadcastInDim S900000 ![] bcast_S_S900000 (constantI S_ 32 100000#32))) src)))
      (broadcastInDim S900000x256 ![0, 1] bcast_S900000x1_S900000x256_0_1
        (broadcastInDim S900000x1 ![0] bcast_S900000_S900000x1_0 nrm)))

/-- The hidden stage: the positive part of a layer plus its bias, times the next weight. -/
def hidden (h : (⟨S100000x256, .f32⟩ : BufTy).Contents (Elt F)) (b : (⟨S256, .f32⟩ : BufTy).Contents (Elt F))
    (w : (⟨S256x256, .f32⟩ : BufTy).Contents (Elt F)) : (⟨S100000x256, .f32⟩ : BufTy).Contents (Elt F) :=
  Host.dotGeneral dot_S100000x256_S256x256_S100000x256_1_0_0_1_n_n none
    (maximumf
      (addf h (broadcastInDim S100000x256 ![0, 1] bcast_S1x256_S100000x256_0_1 (broadcastInDim S1x256 ![1] bcast_S256_S1x256_1 b)))
      (broadcastInDim S100000x256 ![] bcast_S_S100000x256 (constant S_ .f32 0x00000000#32)))
    w

/-- The masked rows of `h` plus the bias. -/
def picked (h : (⟨S100000x256, .f32⟩ : BufTy).Contents (Elt F)) (b : (⟨S256, .f32⟩ : BufTy).Contents (Elt F))
    (mask : (⟨S10000, .i32⟩ : BufTy).Contents (Elt F)) : (⟨S10000x256, .f32⟩ : BufTy).Contents (Elt F) :=
  Host.gather gather_S100000x256_S10000x1_S10000x256_1_0_n_n_0_1_1256
    (addf h (broadcastInDim S100000x256 ![0, 1] bcast_S1x256_S100000x256_0_1 (broadcastInDim S1x256 ![1] bcast_S256_S1x256_1 b)))
    (broadcastInDim S10000x1 ![0] bcast_S10000_S10000x1_0
      (select (cmpi .slt mask (broadcastInDim S10000 ![] bcast_S_S10000 (constantI S_ 32 0#32)))
        (addi mask (broadcastInDim S10000 ![] bcast_S_S10000 (constantI S_ 32 100000#32))) mask))

/-- A matrix less its row maxima. -/
def shifted (g : (⟨S10000x256, .f32⟩ : BufTy).Contents (Elt F)) : (⟨S10000x256, .f32⟩ : BufTy).Contents (Elt F) :=
  subf g (broadcastInDim S10000x256 ![0, 1] bcast_S10000x1_S10000x256_0_1 (broadcastInDim S10000x1 ![0] bcast_S10000_S10000x1_0
    (maximumf (broadcastInDim S10000 ![] bcast_S_S10000 (constant S_ .f32 0xFF800000#32))
      (Host.reduce FloatOps.maximumf g (constant S_ .f32 0xFF800000#32) reducesTo_S10000x256_S10000_d1 h_S_))))

/-- The row-wise log-softmax. -/
def logSoftmax (g : (⟨S10000x256, .f32⟩ : BufTy).Contents (Elt F)) : (⟨S10000x256, .f32⟩ : BufTy).Contents (Elt F) :=
  subf (shifted g) (broadcastInDim S10000x256 ![0, 1] bcast_S10000x1_S10000x256_0_1
    (Host.log (broadcastInDim S10000x1 ![0] bcast_S10000_S10000x1_0
      (Host.reduceAdd (Host.exp (shifted g)) (constant S_ .f32 0x00000000#32) reducesTo_S10000x256_S10000_d1 h_S_))))

/-- The readout: log-softmax of the masked rows of `h` plus the bias. -/
def readout (h : (⟨S100000x256, .f32⟩ : BufTy).Contents (Elt F)) (b : (⟨S256, .f32⟩ : BufTy).Contents (Elt F))
    (mask : (⟨S10000, .i32⟩ : BufTy).Contents (Elt F)) : (⟨S10000x256, .f32⟩ : BufTy).Contents (Elt F) :=
  logSoftmax (picked h b mask)

/-- The reference's first layer is `layer` of its first feature matrix. -/
theorem ref_layer1 (x0 : (⟨S100000x1, .i32⟩ : BufTy).Contents (Elt F)) (x1 : (⟨S2x800000, .i32⟩ : BufTy).Contents (Elt F))
    (x3 x4 : (⟨S256x256, .f32⟩ : BufTy).Contents (Elt F)) :
    val_main_v51 (F := F) x0 x1 x3 x4
      = layer (val_main_v38 (F := F) x0 x3 x4) (val_main_v3 (F := F) x1) (val_main_v6 (F := F) x1) (val_main_v29 (F := F) x1) := rfl

/-- The reference's second feature matrix is the hidden stage of its first layer. -/
theorem ref_hidden (x0 : (⟨S100000x1, .i32⟩ : BufTy).Contents (Elt F)) (x1 : (⟨S2x800000, .i32⟩ : BufTy).Contents (Elt F))
    (x3 x4 : (⟨S256x256, .f32⟩ : BufTy).Contents (Elt F)) (x5 : (⟨S256, .f32⟩ : BufTy).Contents (Elt F))
    (x6 : (⟨S256x256, .f32⟩ : BufTy).Contents (Elt F)) :
    val_main_v56 (F := F) x0 x1 x3 x4 x5 x6 = hidden (val_main_v51 (F := F) x0 x1 x3 x4) x5 x6 := rfl

/-- The reference's second layer is `layer` of its second feature matrix. -/
theorem ref_layer2 (x0 : (⟨S100000x1, .i32⟩ : BufTy).Contents (Elt F)) (x1 : (⟨S2x800000, .i32⟩ : BufTy).Contents (Elt F))
    (x3 x4 : (⟨S256x256, .f32⟩ : BufTy).Contents (Elt F)) (x5 : (⟨S256, .f32⟩ : BufTy).Contents (Elt F))
    (x6 : (⟨S256x256, .f32⟩ : BufTy).Contents (Elt F)) :
    val_main_v69 (F := F) x0 x1 x3 x4 x5 x6
      = layer (val_main_v56 (F := F) x0 x1 x3 x4 x5 x6) (val_main_v3 (F := F) x1) (val_main_v6 (F := F) x1) (val_main_v29 (F := F) x1) := rfl

/-- The reference's result is the readout of its second layer. -/
theorem ref_result (x0 : (⟨S100000x1, .i32⟩ : BufTy).Contents (Elt F)) (x1 : (⟨S2x800000, .i32⟩ : BufTy).Contents (Elt F))
    (x2 : (⟨S10000, .i32⟩ : BufTy).Contents (Elt F))
    (x3 x4 : (⟨S256x256, .f32⟩ : BufTy).Contents (Elt F)) (x5 : (⟨S256, .f32⟩ : BufTy).Contents (Elt F))
    (x6 : (⟨S256x256, .f32⟩ : BufTy).Contents (Elt F)) (x7 : (⟨S256, .f32⟩ : BufTy).Contents (Elt F)) :
    val_main_v80 (F := F) x0 x1 x2 x3 x4 x5 x6 x7
      = readout (val_main_v69 (F := F) x0 x1 x3 x4 x5 x6) x7 x2 := rfl

end Cert.Shared

end
-- ==== Proof.KernelChain.lean ====
/-
  The idealized kernel's host side, stretch by stretch. Its @main is host operations around two calls; the buffer
  contents at each boundary are a fold from the launch memory. Read here: at the first call's entry, the edge data
  (sources, destinations, weights: the same operations as the reference's, so the reference's stage names serve), the
  tokens and the table (the product of the embedding and the first weight); between the calls, one layer over the first
  call's result, the bias as a row and the second weight; after the second call, the readout of one more layer.
-/
import proofs.«428986_j44272522887509_1_alg».proof.Proof.Gen.KernelIdeal.Frame
import proofs.«428986_j44272522887509_1_alg».proof.Proof.Shared

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.Shared

variable {F : FTy → Type} [FloatOps F]
variable (m : (ℓ : Loc nD τ sig) → Buf (Elt F) ℓ) (ρ : Dev nD → PrngReg)

/-! ## At the first call's entry -/

/-- The sources (with the self loops appended). -/
theorem entry_src (c : Dev nD) :
    W3 m ρ c (Proc.devRef .tc main_v3) = Cert.ReferenceIdeal.ReadP.val_main_v3 (F := F) (m ((c : Thread nD τ).loc main_arg1)) := by
  dsimp only [W3, W2, W1, W0, hostOps0, hostOps0_1, hostOps0_2]
  after_results <;> rfl

/-- The destinations (with the self loops appended). -/
theorem entry_dst (c : Dev nD) :
    W3 m ρ c (Proc.devRef .tc main_v6) = Cert.ReferenceIdeal.ReadP.val_main_v6 (F := F) (m ((c : Thread nD τ).loc main_arg1)) := by
  dsimp only [W3, W2, W1, W0, hostOps0, hostOps0_1, hostOps0_2]
  after_results <;> rfl

set_option maxHeartbeats 20000000 in
/-- The edge weights. -/
theorem entry_nrm (c : Dev nD) :
    W3 m ρ c (Proc.devRef .tc main_v29) = Cert.ReferenceIdeal.ReadP.val_main_v29 (F := F) (m ((c : Thread nD τ).loc main_arg1)) := by
  dsimp only [W3, W2, W1, W0, hostOps0, hostOps0_1, hostOps0_2]
  after_results <;> rfl

/-- The tokens are as launched. -/
theorem entry_tok (c : Dev nD) :
    W3 m ρ c (Proc.devRef .tc main_arg0) = m ((c : Thread nD τ).loc main_arg0) := by
  dsimp only [W3, W2, W1, W0, hostOps0, hostOps0_1, hostOps0_2]
  after_results <;> rfl

set_option maxHeartbeats 4000000 in
/-- The table is the product of the embedding and the first weight. -/
theorem entry_tab (c : Dev nD) :
    W3 m ρ c (Proc.devRef .tc main_v31)
      = truncf .bf16 (Host.dotGeneral dot_S256x256_S256x256_S256x256_1_0_0_1_n_n none (m ((c : Thread nD τ).loc main_arg3)) (m ((c : Thread nD τ).loc main_arg4))) bitsLt_bf16_f32 := by
  dsimp only [W3, W2, W1, W0, hostOps0, hostOps0_1, hostOps0_2]
  after_results_simp <;> rfl

/-! ## The first call's result, and what it leaves alone -/

/-- The first call's result array is what its hundred points wrote. -/
theorem first_result (c : Dev nD) :
    W4 m ρ c (Proc.devRef .tc main_v32) = (dat0 (V3 m ρ) c).arrAt 2 cfg0.N := W4_arr m ρ c 2

/-! ## Between the calls -/

theorem mid_src (c : Dev nD) : W5 m ρ c (Proc.devRef .tc main_v3) = W3 m ρ c (Proc.devRef .tc main_v3) := by
  have h : W5 m ρ c (Proc.devRef .tc main_v3) = W4 m ρ c (Proc.devRef .tc main_v3) := by
    dsimp only [W5, hostOps1]; after_results
  exact h.trans (W4_of_ne m ρ c main_v3 (by decide))
theorem mid_dst (c : Dev nD) : W5 m ρ c (Proc.devRef .tc main_v6) = W3 m ρ c (Proc.devRef .tc main_v6) := by
  have h : W5 m ρ c (Proc.devRef .tc main_v6) = W4 m ρ c (Proc.devRef .tc main_v6) := by
    dsimp only [W5, hostOps1]; after_results
  exact h.trans (W4_of_ne m ρ c main_v6 (by decide))
theorem mid_nrm (c : Dev nD) : W5 m ρ c (Proc.devRef .tc main_v29) = W3 m ρ c (Proc.devRef .tc main_v29) := by
  have h : W5 m ρ c (Proc.devRef .tc main_v29) = W4 m ρ c (Proc.devRef .tc main_v29) := by
    dsimp only [W5, hostOps1]; after_results
  exact h.trans (W4_of_ne m ρ c main_v29 (by decide))

set_option maxHeartbeats 4000000 in
/-- The second call's first operand: one layer over the first call's result. -/
theorem mid_conv (c : Dev nD) :
    W5 m ρ c (Proc.devRef .tc main_v45)
      = layer (W4 m ρ c (Proc.devRef .tc main_v32)) (W3 m ρ c (Proc.devRef .tc main_v3)) (W3 m ρ c (Proc.devRef .tc main_v6))
          (W3 m ρ c (Proc.devRef .tc main_v29)) := by
  rw [← W4_of_ne m ρ c main_v3 (by decide), ← W4_of_ne m ρ c main_v6 (by decide), ← W4_of_ne m ρ c main_v29 (by decide)]
  dsimp only [W5, hostOps1]
  after_results_simp <;> rfl

/-- The second call's bias row. -/
theorem mid_bias (c : Dev nD) :
    W5 m ρ c (Proc.devRef .tc main_v47) = shapeCast S1x256 (m ((c : Thread nD τ).loc main_arg5)) shapeCasts_S256_S1x256 := by
  have h : W5 m ρ c (Proc.devRef .tc main_v47) = shapeCast S1x256 (W4 m ρ c (Proc.devRef .tc main_arg5)) shapeCasts_S256_S1x256 := by
    dsimp only [W5, hostOps1]; after_results <;> rfl
  rw [h, W4_of_ne m ρ c main_arg5 (by decide)]
  dsimp only [W3, W2, W1, W0, hostOps0, hostOps0_1, hostOps0_2]
  after_results <;> rfl

/-- The second call's weight. -/
theorem mid_weight (c : Dev nD) :
    W5 m ρ c (Proc.devRef .tc main_v46) = truncf .bf16 (m ((c : Thread nD τ).loc main_arg6)) bitsLt_bf16_f32 := by
  have h : W5 m ρ c (Proc.devRef .tc main_v46) = truncf .bf16 (W4 m ρ c (Proc.devRef .tc main_arg6)) bitsLt_bf16_f32 := by
    dsimp only [W5, hostOps1]; after_results <;> rfl
  rw [h, W4_of_ne m ρ c main_arg6 (by decide)]
  dsimp only [W3, W2, W1, W0, hostOps0, hostOps0_1, hostOps0_2]
  after_results <;> rfl

/-! ## The second call's result, and the readout -/

/-- The second call's result array is what its hundred points wrote. -/
theorem second_result (c : Dev nD) :
    W6 m ρ c (Proc.devRef .tc main_v48) = (dat1 (V5 m ρ) c).arrAt 3 cfg1.N := W6_arr m ρ c 3

theorem late_src (c : Dev nD) : W6 m ρ c (Proc.devRef .tc main_v3) = W3 m ρ c (Proc.devRef .tc main_v3) :=
  (W6_of_ne m ρ c main_v3 (by decide)).trans (mid_src m ρ c)
theorem late_dst (c : Dev nD) : W6 m ρ c (Proc.devRef .tc main_v6) = W3 m ρ c (Proc.devRef .tc main_v6) :=
  (W6_of_ne m ρ c main_v6 (by decide)).trans (mid_dst m ρ c)
theorem late_nrm (c : Dev nD) : W6 m ρ c (Proc.devRef .tc main_v29) = W3 m ρ c (Proc.devRef .tc main_v29) :=
  (W6_of_ne m ρ c main_v29 (by decide)).trans (mid_nrm m ρ c)

end Cert.KernelIdeal.Chain

end
-- ==== Proof.EmbedRows.lean ====
import proofs.«428986_j44272522887509_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.EmbedRows

open Cert.KernelIdeal Cert.KernelIdeal.Gen Idealize.ShloMosaic Idealize.ShloMosaic.TcCoe Idealize.SL.Sem
open Idealize.ShloMosaic.ValueIdx

/-- The contraction's index bookkeeping, axis by axis: at output index `i` and contraction position `q` the left
    operand is read at row `i 0`, column `q`, the right operand at row `q`, column `i 1`. -/
theorem lhs_embed_0 (i : S1000x256.Idx) (q : dot_S1000x256_S256x256_S1000x256_1_0_0_1_n_n.contr.Idx) :
    (dot_S1000x256_S256x256_S1000x256_1_0_0_1_n_n.lhsIdx i q 0).val = (i 0).val := by
  unfold DotDims.lhsIdx
  rw [dif_neg (show ¬(0 : Fin S1000x256.rank) ∈ dot_S1000x256_S256x256_S1000x256_1_0_0_1_n_n.lhsBatch by decide), dif_pos (show (0 : Fin S1000x256.rank) ∈ dot_S1000x256_S256x256_S1000x256_1_0_0_1_n_n.lhsNonContracting by decide)]
  rfl
theorem lhs_embed_1 (i : S1000x256.Idx) (q : dot_S1000x256_S256x256_S1000x256_1_0_0_1_n_n.contr.Idx) :
    (dot_S1000x256_S256x256_S1000x256_1_0_0_1_n_n.lhsIdx i q 1).val = (q ⟨0, by decide⟩).val :=
  dot_S1000x256_S256x256_S1000x256_1_0_0_1_n_n.lhsIdx_val_of_single rfl i q
theorem rhs_embed_0 (i : S1000x256.Idx) (q : dot_S1000x256_S256x256_S1000x256_1_0_0_1_n_n.contr.Idx) :
    (dot_S1000x256_S256x256_S1000x256_1_0_0_1_n_n.rhsIdx i q 0).val = (q ⟨0, by decide⟩).val :=
  dot_S1000x256_S256x256_S1000x256_1_0_0_1_n_n.rhsIdx_val_of_single rfl i q
theorem rhs_embed_1 (i : S1000x256.Idx) (q : dot_S1000x256_S256x256_S1000x256_1_0_0_1_n_n.contr.Idx) :
    (dot_S1000x256_S256x256_S1000x256_1_0_0_1_n_n.rhsIdx i q 1).val = (i 1).val := by
  unfold DotDims.rhsIdx
  rw [dif_neg (show ¬(1 : Fin S256x256.rank) ∈ dot_S1000x256_S256x256_S1000x256_1_0_0_1_n_n.rhsBatch by decide), dif_pos (show (1 : Fin S256x256.rank) ∈ dot_S1000x256_S256x256_S1000x256_1_0_0_1_n_n.rhsNonContracting by decide)]
  rfl

/-- The one-hot factor: the token word `w` compared with the column number `k`, the bit widened to 32 bits and
    read as a number (1 where they are equal, 0 elsewhere). -/
def oneHot (w : BitVec 32) (k : Fin 256) : EReal :=
  FloatOps.sitofp (F := Ideal) .f32 ((IntOp.cmpi .eq w (BitVec.ofNat 32 k.val)).setWidth 32)

/-- Row `p`, column `q` of the product of the one-hot rows of the tokens `x` with the table `tab`: the sum over the
    table's rows `k` of the one-hot factor of token `p` at `k` times the table's entry `(k, q)`. -/
def rowVal {n : Nat} (x : (⟨2, ![n, 1]⟩ : Shape).Idx → BitVec 32) (tab : Vec Ideal S256x256 .bf16) (p : Fin n) (q : Fin 256) : EReal :=
  ∑ k : Fin 256, oneHot (x (ix2 p 0)) k * tab (ix2 k q)

/-- THE BODY'S PAYLOAD AT AN INDEX: the matmul into a zero accumulator is the sum over the contraction axis; its left
    factor at `(p, k)` is the token of row `p` (the column vector broadcast along the lanes) compared with the lane
    number `k` (the iota along axis 1); the conversion to bf16 and the table's shape cast change nothing. -/
theorem pay_apply (x0 : Vec Ideal S1000x1 .i32) (x1 : Vec Ideal S256x256 .bf16) (p : Fin 1000) (q : Fin 256) :
    (k0_pay1 (F := Ideal) x0 x1 : Vec Ideal S1000x256 .f32) (ix2 p q) = rowVal x0 x1 p q := by
  unfold k0_pay1 rowVal
  rw [shapeCast_self]
  refine (Ideal.matmul_constant_zero_apply (φ₁ := .bf16) (φ₂ := .bf16) dot_S1000x256_S256x256_S1000x256_1_0_0_1_n_n none _ x1 (ix2 p q)).trans ?_
  rw [← Equiv.sum_comp (contrEquiv1 dot_S1000x256_S256x256_S1000x256_1_0_0_1_n_n 256 rfl rfl).symm]
  refine Finset.sum_congr rfl fun k _ => ?_
  have hk := contrEquiv1_symm_val dot_S1000x256_S256x256_S1000x256_1_0_0_1_n_n 256 rfl rfl k
  have el : dot_S1000x256_S256x256_S1000x256_1_0_0_1_n_n.lhsIdx (ix2 p q) ((contrEquiv1 dot_S1000x256_S256x256_S1000x256_1_0_0_1_n_n 256 rfl rfl).symm k) = ix2 p k := funext fun a => Fin.ext (by
    match a with
    | ⟨0, _⟩ => exact lhs_embed_0 _ _
    | ⟨1, _⟩ => exact (lhs_embed_1 _ _).trans hk)
  have er : dot_S1000x256_S256x256_S1000x256_1_0_0_1_n_n.rhsIdx (ix2 p q) ((contrEquiv1 dot_S1000x256_S256x256_S1000x256_1_0_0_1_n_n 256 rfl rfl).symm k) = ix2 k q := funext fun a => Fin.ext (by
    match a with
    | ⟨0, _⟩ => exact (rhs_embed_0 _ _).trans hk
    | ⟨1, _⟩ => exact rhs_embed_1 _ _)
  rw [el, er]
  refine congrArg (· * x1 (ix2 k q)) ?_
  show FloatOps.sitofp (F := Ideal) .f32 ((IntOp.cmpi .eq (broadcastTo S1000x256 x0 broadcasts_S1000x1_S1000x256 (ix2 p k)) (iota .tc S1000x256 32 [1] iota_S1000x256_d1_w32 (ix2 p k))).setWidth 32) = oneHot (x0 (ix2 p 0)) k
  rw [broadcastTo_apply x0 broadcasts_S1000x1_S1000x256 (ix2 p k) (ix2 p 0) (fun a => by
      match a with
      | ⟨0, _⟩ => show p.val = if (1000 : Nat) = 1 then 0 else p.val; rw [if_neg (by decide)]
      | ⟨1, _⟩ => show (0 : Nat) = if (1 : Nat) = 1 then 0 else k.val; rw [if_pos rfl]),
    iota_single_apply]
  rfl

/-- The whole result array as ONE function of the token array and the table: entry `(r, j)` is the one-hot row of
    token `r` times column `j` of the table. -/
def G (x : Vec Ideal S100000x1 .i32) (tab : Vec Ideal S256x256 .bf16) : Vec Ideal S100000x256 .f32 :=
  fun i => rowVal x tab (i 0) (i 1)

/-- The payload of a point, at a block index `y`, is `G` at an array index `i` when the point's token block at row
    `y 0` is the token array at row `i 0`, its table block is the whole table, and the columns agree. -/
theorem pay_point (x0 : Vec Ideal S1000x1 .i32) (x1 : Vec Ideal S256x256 .bf16)
    (X : Vec Ideal S100000x1 .i32) (T : Vec Ideal S256x256 .bf16) (y : S1000x256.Idx) (i : S100000x256.Idx)
    (hx0 : x0 (ix2 (y 0) 0) = X (ix2 (i 0) 0)) (hx1 : x1 = T) (h1 : (y 1).val = (i 1).val) :
    (k0_pay1 (F := Ideal) x0 x1 : Vec Ideal S1000x256 .f32) y = G X T i := by
  obtain ⟨p, q, rfl⟩ : ∃ (p : Fin 1000) (q : Fin 256), y = ix2 p q := ⟨y 0, y 1, eq_ix2 y⟩
  obtain ⟨r, j, rfl⟩ : ∃ (r : Fin 100000) (j : Fin 256), i = ix2 r j := ⟨i 0, i 1, eq_ix2 i⟩
  subst hx1
  obtain rfl : q = j := Fin.ext h1
  rw [pay_apply]
  show rowVal x0 x1 p q = rowVal X x1 r q
  unfold rowVal
  rw [show x0 (ix2 p 0) = X (ix2 r 0) from hx0]

theorem hz : (![0, 0] : Fin 2 → Nat) = fun _ => 0 := funext fun a => by fin_cases a <;> rfl

/-- The printed index maps, decided once over the grid: at point `t` the token window and the result window are at
    block `(t, 0)`, the table window at block `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of `G` of the token array and the table as the region finds them: the
    token block at point `t` is rows `1000 t … 1000 t + 999` of the token array, the table block is the table. -/
theorem flushed_eq (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal) (G (V c main_arg0) (V c main_v31)) := by
  show (cfg0.win 2).cut (grid0.coords t) ((dat0 (F := Ideal) V c).after 2 t) = _
  rw [after0_2]
  unfold out0_2
  rw [View.canon_unit_zero hz]
  simp only [View.ld_unit_zero (S := S1000x1) hz, View.ld_unit_zero (S := S256x256) hz]
  obtain ⟨e00, e01, e10, e11, e20, e21⟩ := idx_facts t
  funext y
  refine pay_point (iblk0 V c 0 t) (iblk0 V c 1 t) (V c main_arg0) (V c main_v31) y (((cfg0.win 2).blk t).view.emb y) ?_ ?_ ?_
  · show V c main_arg0 (((cfg0.win 0).blk t).view.emb (ix2 (y 0) 0)) = V c main_arg0 (ix2 ((((cfg0.win 2).blk t).view.emb y) 0) 0)
    refine congrArg (V c main_arg0) ?_
    funext a; apply Fin.ext
    match a with
    | ⟨0, _⟩ => show win0_0.index t (0 : Fin 2) * 1000 + 1 * (y 0).val = win0_2.index t (0 : Fin 2) * 1000 + 1 * (y 0).val; omega
    | ⟨1, _⟩ => show win0_0.index t (1 : Fin 2) * 1 + 1 * 0 = 0; omega
  · funext z
    show V c main_v31 (((cfg0.win 1).blk t).view.emb z) = V c main_v31 z
    refine congrArg (V c main_v31) ?_
    funext a; apply Fin.ext
    match a with
    | ⟨0, _⟩ => show win0_1.index t (0 : Fin 2) * 256 + 1 * (z 0).val = (z 0).val; omega
    | ⟨1, _⟩ => show win0_1.index t (1 : Fin 2) * 256 + 1 * (z 1).val = (z 1).val; omega
  · show (y 1).val = win0_2.index t (1 : Fin 2) * 256 + 1 * (y 1).val; omega

/-- An index of the array is in point `t`'s block iff each coordinate is in the block's range on its axis. -/
theorem mem_blk (t : Fin cfg0.N) (i : S100000x256.Idx) :
    i ∈ ((cfg0.win 2).blk t).view.set ↔ ∀ a : Fin 2, win0_2.index t a * S1000x256.size a ≤ (i a).val ∧ (i a).val < win0_2.index t a * S1000x256.size a + S1000x256.size a := by
  show i ∈ ((View.whole main_v32).slice (win0_2.rect t)).set ↔ _
  rw [View.set_slice_whole, Rect.mem_set_unit]
  exact Iff.rfl

/-- The blocks tile the array: row `r` is in the block of point `r / 1000`. -/
theorem cover (i : S100000x256.Idx) : ∃ t : Fin cfg0.N, (cfg0.win 2).flush t = true ∧ i ∈ ((cfg0.win 2).blk t).view.set := by
  have hi0 : (i 0).val < 100000 := (i 0).isLt
  have hi1 : (i 1).val < 256 := (i 1).isLt
  have hN : cfg0.N = 100 := N_0
  obtain ⟨t, ht⟩ : ∃ t : Fin cfg0.N, t.val = (i 0).val / 1000 := ⟨⟨(i 0).val / 1000, by rw [hN]; omega⟩, rfl⟩
  obtain ⟨-, -, -, -, e20, e21⟩ := idx_facts t
  refine ⟨t, flush0_2 t, ?_⟩
  rw [mem_blk]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 256 ≤ (i 1).val ∧ (i 1).val < win0_2.index t (1 : Fin 2) * 256 + 256; omega

/-- THE ARRAY after the 100 points is `G` of the token array and the table. -/
theorem final (V : (c : Dev nD) → (b : Ref sig .tc) → Buf (Elt Ideal) ((c : Thread nD τ).loc b)) (c : Dev nD) :
    (dat0 (F := Ideal) V c).arrAt 2 cfg0.N = G (V c main_arg0) (V c main_v31) :=
  (dat0 (F := Ideal) V c).arrAt_eq_of_cover 2 (G (V c main_arg0) (V c main_v31)) (fun t _ => flushed_eq V c t) cover

/-- The one-hot factor is 1 where the token word is the word of the column number and 0 elsewhere. -/
theorem oneHot_eq (w : BitVec 32) (k : Fin 256) : oneHot w k = if w = BitVec.ofNat 32 k.val then 1 else 0 := by
  unfold oneHot
  show (((((IntOp.cmpi .eq w (BitVec.ofNat 32 k.val)).setWidth 32).toInt : ℤ) : ℝ) : EReal) = _
  unfold IntOp.cmpi
  by_cases h : w = BitVec.ofNat 32 k.val
  · rw [if_pos h]
    have hb : (w == BitVec.ofNat 32 k.val) = true := by rw [h]; exact beq_self_eq_true _
    simp only [hb]
    have e : ((BitVec.ofBool true).setWidth 32).toInt = 1 := by decide
    rw [e]; norm_num
  · rw [if_neg h]
    have hb : (w == BitVec.ofNat 32 k.val) = false := by simpa using h
    simp only [hb]
    have e : ((BitVec.ofBool false).setWidth 32).toInt = 0 := by decide
    rw [e]; norm_num

/-- Words of distinct numbers below 256 are distinct. -/
theorem ofNat_ne {v k : Fin 256} (h : k ≠ v) : BitVec.ofNat 32 v.val ≠ BitVec.ofNat 32 k.val := by
  intro e
  apply h
  have := congrArg BitVec.toNat e
  simp only [BitVec.toNat_ofNat] at this
  apply Fin.ext
  have hv := v.isLt
  have hk := k.isLt
  omega

/-- Row `r` of the first call's result array is row `v` of the table, when the token of row `r` is `v`. -/
theorem embed_rows_at (V : (c : Dev nD) → (b : Ref sig .tc) → Buf (Elt Ideal) ((c : Thread nD τ).loc b)) (c : Dev nD)
    (r : Fin 100000) (j : Fin 256) (v : Fin 256)
    (hv : (V c main_arg0 : Vec Ideal S100000x1 .i32) (ix2 r 0) = BitVec.ofNat 32 v.val) :
    ((dat0 (F := Ideal) V c).arrAt 2 cfg0.N : Vec Ideal S100000x256 .f32) (ix2 r j)
      = (V c main_v31 : Vec Ideal S256x256 .bf16) (ix2 v j) := by
  refine (congrFun (final V c) (ix2 r j : S100000x256.Idx)).trans ?_
  show rowVal (V c main_arg0 : Vec Ideal S100000x1 .i32) (V c main_v31) r j = _
  unfold rowVal
  rw [show (V c main_arg0 : Vec Ideal S100000x1 .i32) (ix2 r 0) = BitVec.ofNat 32 v.val from hv]
  rw [Finset.sum_eq_single v]
  · rw [oneHot_eq, if_pos rfl, one_mul]
  · intro k _ hk
    rw [oneHot_eq, if_neg (ofNat_ne hk), zero_mul]
  · intro h
    exact absurd (Finset.mem_univ v) h

end Cert.KernelIdeal.EmbedRows

end
-- ==== Proof.ReluRows.lean ====
import proofs.«428986_j44272522887509_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.ReluRows

open Cert.KernelIdeal Cert.KernelIdeal.Gen Idealize.ShloMosaic Idealize.ShloMosaic.TcCoe Idealize.SL.Sem
open Idealize.ShloMosaic.ValueIdx

/-! ## The product at an index

The second call's body multiplies a 1000 × 256 block by the 256 × 256 weight into a zero accumulator: entry `(p, q)` of
the product is the sum over the one contracted coordinate `k` of the left operand at `(p, k)` times the right at `(k, q)`.
The four facts below say which coordinate of each operand the product's index maps read. -/

theorem lhs_axis0 (i : S1000x256.Idx) (q : dot_S1000x256_S256x256_S1000x256_1_0_0_1_n_n.contr.Idx) :
    (dot_S1000x256_S256x256_S1000x256_1_0_0_1_n_n.lhsIdx i q 0).val = (i 0).val := by
  unfold DotDims.lhsIdx
  rw [dif_neg (show ¬(0 : Fin S1000x256.rank) ∈ dot_S1000x256_S256x256_S1000x256_1_0_0_1_n_n.lhsBatch by decide), dif_pos (show (0 : Fin S1000x256.rank) ∈ dot_S1000x256_S256x256_S1000x256_1_0_0_1_n_n.lhsNonContracting by decide)]
  rfl
theorem lhs_axis1 (i : S1000x256.Idx) (q : dot_S1000x256_S256x256_S1000x256_1_0_0_1_n_n.contr.Idx) :
    (dot_S1000x256_S256x256_S1000x256_1_0_0_1_n_n.lhsIdx i q 1).val = (q ⟨0, by decide⟩).val :=
  dot_S1000x256_S256x256_S1000x256_1_0_0_1_n_n.lhsIdx_val_of_single rfl i q
theorem rhs_axis0 (i : S1000x256.Idx) (q : dot_S1000x256_S256x256_S1000x256_1_0_0_1_n_n.contr.Idx) :
    (dot_S1000x256_S256x256_S1000x256_1_0_0_1_n_n.rhsIdx i q 0).val = (q ⟨0, by decide⟩).val :=
  dot_S1000x256_S256x256_S1000x256_1_0_0_1_n_n.rhsIdx_val_of_single rfl i q
theorem rhs_axis1 (i : S1000x256.Idx) (q : dot_S1000x256_S256x256_S1000x256_1_0_0_1_n_n.contr.Idx) :
    (dot_S1000x256_S256x256_S1000x256_1_0_0_1_n_n.rhsIdx i q 1).val = (i 1).val := by
  unfold DotDims.rhsIdx
  rw [dif_neg (show ¬(1 : Fin S256x256.rank) ∈ dot_S1000x256_S256x256_S1000x256_1_0_0_1_n_n.rhsBatch by decide), dif_pos (show (1 : Fin S256x256.rank) ∈ dot_S1000x256_S256x256_S1000x256_1_0_0_1_n_n.rhsNonContracting by decide)]
  rfl

/-- The product into a zero accumulator at `(p, q)`: the sum over `k` of left `(p, k)` times right `(k, q)`. -/
theorem product_at (L : FVec Ideal S1000x256 .bf16) (R : FVec Ideal S256x256 .bf16) (p : Fin 1000) (q : Fin 256) :
    matmul dot_S1000x256_S256x256_S1000x256_1_0_0_1_n_n none L R (constant S1000x256 .f32 0x00000000#32) (ix2 p q)
      = ∑ k : Fin 256, L (ix2 p k) * R (ix2 k q) := by
  simp only [matmul]
  rw [Ideal.matmul_constant_zero_apply, ← Equiv.sum_comp (ValueIdx.contrEquiv1 dot_S1000x256_S256x256_S1000x256_1_0_0_1_n_n 256 rfl rfl).symm]
  refine Finset.sum_congr rfl fun k _ => ?_
  have hk := ValueIdx.contrEquiv1_symm_val dot_S1000x256_S256x256_S1000x256_1_0_0_1_n_n 256 rfl rfl k
  have el : dot_S1000x256_S256x256_S1000x256_1_0_0_1_n_n.lhsIdx (ix2 p q) ((ValueIdx.contrEquiv1 dot_S1000x256_S256x256_S1000x256_1_0_0_1_n_n 256 rfl rfl).symm k) = ix2 p k := funext fun a => Fin.ext (by
    match a with
    | ⟨0, _⟩ => exact lhs_axis0 _ _
    | ⟨1, _⟩ => exact (lhs_axis1 _ _).trans hk)
  have er : dot_S1000x256_S256x256_S1000x256_1_0_0_1_n_n.rhsIdx (ix2 p q) ((ValueIdx.contrEquiv1 dot_S1000x256_S256x256_S1000x256_1_0_0_1_n_n 256 rfl rfl).symm k) = ix2 k q := funext fun a => Fin.ext (by
    match a with
    | ⟨0, _⟩ => exact (rhs_axis0 _ _).trans hk
    | ⟨1, _⟩ => exact rhs_axis1 _ _)
  rw [el, er]

/-- The bias row broadcast down the block's rows reads, at `(p, k)`, the row's entry `(0, k)`. -/
theorem bias_at (x1 : FVec Ideal S1x256 .f32) (p : Fin 1000) (k : Fin 256) :
    broadcastTo S1000x256 x1 broadcasts_S1x256_S1000x256 (ix2 p k) = x1 (ix2 0 k) := by
  refine broadcastTo_apply x1 broadcasts_S1x256_S1000x256 (ix2 p k) (ix2 0 k) fun a => ?_
  match a with
  | ⟨0, _⟩ => rfl
  | ⟨1, _⟩ => rfl

/-- The body's value at `(p, q)` of its block, from its three loaded blocks: the positive part of the first block's row
    `p` plus the bias row, contracted with column `q` of the weight. -/
theorem body_at (x0 : FVec Ideal S1000x256 .f32) (x1 : FVec Ideal S1x256 .f32) (x2 : FVec Ideal S256x256 .bf16)
    (p : Fin 1000) (q : Fin 256) :
    k1_pay1 (F := Ideal) x0 x1 x2 (ix2 p q)
      = ∑ k : Fin 256, max (x0 (ix2 p k) + x1 (ix2 0 k)) (0 : EReal) * x2 (ix2 k q) := by
  unfold k1_pay1
  simp only [shapeCast_self]
  refine (product_at _ _ p q).trans ?_
  refine Finset.sum_congr rfl fun k _ => ?_
  show max (x0 (ix2 p k) + broadcastTo S1000x256 x1 broadcasts_S1x256_S1000x256 (ix2 p k)) (Ideal.ofBits .f32 0x00000000#32) * x2 (ix2 k q) = _
  rw [bias_at, Ideal.ofBits_zero_f32]

/-! ## From the blocks to the array

The second call runs over 100 points; point `t` reads rows `1000 t … 1000 t + 999` of the first operand, the whole bias
row and the whole weight, and writes rows `1000 t … 1000 t + 999` of the result. So what every point writes back is its
block of ONE function of the three arrays, and the 100 blocks tile the result. -/

theorem zero_offsets : (![0, 0] : Fin 2 → Nat) = fun _ => 0 := funext fun a => by fin_cases a <;> rfl

/-- The result array, entry by entry, as a function of the three operand arrays. -/
abbrev result (A : FVec Ideal S100000x256 .f32) (B : FVec Ideal S1x256 .f32) (W : FVec Ideal S256x256 .bf16) :
    FVec Ideal S100000x256 .f32 :=
  fun i => ∑ k : Fin 256, max (A (ix2 (⟨(i 0).val, idx2_lt0 i⟩ : Fin 100000) k) + B (ix2 0 k)) (0 : EReal)
    * W (ix2 k (⟨(i 1).val, idx2_lt1 i⟩ : Fin 256))

/-- The block indices of the four windows at every point: the first operand's and the result's blocks move down the
    rows with the point; the bias row and the weight are one block each. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section Blocks

variable (V : (c : Dev nD) → (b : Ref sig .tc) → Buf (Elt Ideal) ((c : Thread nD τ).loc b)) (c : Dev nD)

/-- Entry `x` of the first operand's block at point `t` is entry `(1000 t + x₀, x₁)` of the array. -/
theorem rows_block_at (A : FVec Ideal S100000x256 .f32) (hA : V c main_v45 = A) (t : Fin cfg1.N)
    (x : S1000x256.Idx) (i : S100000x256.Idx)
    (h0 : (i 0).val = 1000 * t.val + (x 0).val) (h1 : (i 1).val = (x 1).val) :
    (iblk1 (F := Ideal) V c 0 t : Vec Ideal S1000x256 .f32) x = A i := by
  obtain ⟨e0, e1, -⟩ := block_indices t
  unfold iblk1
  rw [View.read_apply]
  show V c main_v45 _ = A i
  rw [hA]
  refine congrArg A (funext fun a => Fin.ext ?_)
  match a with
  | ⟨0, _⟩ => show win1_0.index t (0 : Fin 2) * 1000 + 1 * (x 0).val = (i 0).val; rw [e0, h0]; omega
  | ⟨1, _⟩ => show win1_0.index t (1 : Fin 2) * 256 + 1 * (x 1).val = (i 1).val; rw [e1, h1]; omega

/-- The bias row's block at any point is the row. -/
theorem bias_block_at (B : FVec Ideal S1x256 .f32) (hB : V c main_v47 = B) (t : Fin cfg1.N) (x : S1x256.Idx) :
    (iblk1 (F := Ideal) V c 1 t : Vec Ideal S1x256 .f32) x = B x := by
  obtain ⟨-, -, e0, e1, -⟩ := block_indices t
  unfold iblk1
  rw [View.read_apply]
  show V c main_v47 _ = B x
  rw [hB]
  refine congrArg B (funext fun a => Fin.ext ?_)
  match a with
  | ⟨0, _⟩ => show win1_1.index t (0 : Fin 2) * 1 + 1 * (x 0).val = (x 0).val; rw [e0]; omega
  | ⟨1, _⟩ => show win1_1.index t (1 : Fin 2) * 256 + 1 * (x 1).val = (x 1).val; rw [e1]; omega

/-- The weight's block at any point is the weight. -/
theorem weight_block_at (W : FVec Ideal S256x256 .bf16) (hW : V c main_v46 = W) (t : Fin cfg1.N) (x : S256x256.Idx) :
    (iblk1 (F := Ideal) V c 2 t : Vec Ideal S256x256 .bf16) x = W x := by
  obtain ⟨-, -, -, -, e0, e1, -⟩ := block_indices t
  unfold iblk1
  rw [View.read_apply]
  show V c main_v46 _ = W x
  rw [hW]
  refine congrArg W (funext fun a => Fin.ext ?_)
  match a with
  | ⟨0, _⟩ => show win1_2.index t (0 : Fin 2) * 256 + 1 * (x 0).val = (x 0).val; rw [e0]; omega
  | ⟨1, _⟩ => show win1_2.index t (1 : Fin 2) * 256 + 1 * (x 1).val = (x 1).val; rw [e1]; omega

end Blocks

/-- The body's value at an index of its block, the index given by its two coordinates. -/
theorem body_at_idx (x0 : FVec Ideal S1000x256 .f32) (x1 : FVec Ideal S1x256 .f32) (x2 : FVec Ideal S256x256 .bf16)
    (y : S1000x256.Idx) (p : Fin 1000) (q : Fin 256) (hp : (y 0).val = p.val) (hq : (y 1).val = q.val) :
    k1_pay1 (F := Ideal) x0 x1 x2 y
      = ∑ k : Fin 256, max (x0 (ix2 p k) + x1 (ix2 0 k)) (0 : EReal) * x2 (ix2 k q) := by
  obtain rfl : y = ix2 p q := funext fun a => Fin.ext (by
    match a with
    | ⟨0, _⟩ => exact hp
    | ⟨1, _⟩ => exact hq)
  exact body_at x0 x1 x2 p q

section Array

variable (V : (c : Dev nD) → (b : Ref sig .tc) → Buf (Elt Ideal) ((c : Thread nD τ).loc b)) (c : Dev nD)
variable (A : FVec Ideal S100000x256 .f32) (B : FVec Ideal S1x256 .f32) (W : FVec Ideal S256x256 .bf16)

/-- What point `t` writes back is block `t` of `result`: the body's value at `(p, q)` of the block reads row
    `1000 t + p` of the first operand, and `(1000 t + p, q)` is where the block's entry `(p, q)` lies in the array. -/
theorem written_block (hA : V c main_v45 = A) (hB : V c main_v47 = B) (hW : V c main_v46 = W) (t : Fin cfg1.N) :
    (dat1 (F := Ideal) V c).flushed 3 t = ((cfg1.win 3).blk t).view.read (Elt Ideal) (result A B W) := by
  show (cfg1.win 3).cut (grid1.coords t) ((dat1 (F := Ideal) V c).after 3 t) = _
  rw [after1_3]
  unfold out1_3
  rw [View.canon_unit_zero zero_offsets]
  simp only [View.ld_unit_zero (S := S1000x256) zero_offsets, View.ld_unit_zero (S := S1x256) zero_offsets,
    View.ld_unit_zero (S := S256x256) zero_offsets]
  obtain ⟨-, -, -, -, -, -, e0, e1⟩ := block_indices t
  funext y
  show k1_pay1 (F := Ideal) (iblk1 V c 0 t) (iblk1 V c 1 t) (iblk1 V c 2 t) ((cfg1.win 3).xinj (grid1.coords t) y)
    = result A B W (((cfg1.win 3).blk t).view.emb y)
  refine (body_at_idx (iblk1 V c 0 t) (iblk1 V c 1 t) (iblk1 V c 2 t) ((cfg1.win 3).xinj (grid1.coords t) y)
    ⟨(y 0).val, (y 0).isLt⟩ ⟨(y 1).val, (y 1).isLt⟩ rfl rfl).trans ?_
  refine Finset.sum_congr rfl fun k _ => ?_
  have hr : ((((cfg1.win 3).blk t).view.emb y) 0).val = 1000 * t.val + (y 0).val := by
    show win1_3.index t (0 : Fin 2) * 1000 + 1 * (y 0).val = _; rw [e0]; omega
  have hc : ((((cfg1.win 3).blk t).view.emb y) 1).val = (y 1).val := by
    show win1_3.index t (1 : Fin 2) * 256 + 1 * (y 1).val = _; rw [e1]; omega
  have ha := rows_block_at V c A hA t (ix2 (⟨(y 0).val, (y 0).isLt⟩ : Fin 1000) k)
    (ix2 (⟨((((cfg1.win 3).blk t).view.emb y) 0).val, idx2_lt0 _⟩ : Fin 100000) k) hr rfl
  have hb := bias_block_at V c B hB t (ix2 0 k)
  have hw := weight_block_at V c W hW t (ix2 k (⟨(y 1).val, (y 1).isLt⟩ : Fin 256))
  have hq : (⟨((((cfg1.win 3).blk t).view.emb y) 1).val, idx2_lt1 _⟩ : Fin 256) = ⟨(y 1).val, (y 1).isLt⟩ := Fin.ext hc
  rw [ha, hb, hw, hq]

/-- An index of the result array is in point `t`'s block iff each coordinate is in the block's range on its axis. -/
theorem mem_block (t : Fin cfg1.N) (i : S100000x256.Idx) :
    i ∈ ((cfg1.win 3).blk t).view.set ↔ ∀ a : Fin 2, win1_3.index t a * S1000x256.size a ≤ (i a).val
      ∧ (i a).val < win1_3.index t a * S1000x256.size a + S1000x256.size a := by
  show i ∈ ((View.whole main_v48).slice (win1_3.rect t)).set ↔ _
  rw [View.set_slice_whole, Rect.mem_set_unit]
  exact Iff.rfl

/-- Row `r` lies in the block of point `r / 1000`, which is written back. -/
theorem covered (i : S100000x256.Idx) :
    ∃ t : Fin cfg1.N, (cfg1.win 3).flush t = true ∧ i ∈ ((cfg1.win 3).blk t).view.set := by
  have hi0 : (i 0).val < 100000 := idx2_lt0 i
  have hi1 : (i 1).val < 256 := idx2_lt1 i
  have hN : cfg1.N = 100 := N_1
  have ht : (i 0).val / 1000 < cfg1.N := by rw [hN]; omega
  obtain ⟨-, -, -, -, -, -, e0, e1⟩ := block_indices ⟨(i 0).val / 1000, ht⟩
  refine ⟨⟨(i 0).val / 1000, ht⟩, flush1_3 _, ?_⟩
  rw [mem_block]
  intro a
  match a with
  | ⟨0, _⟩ =>
    show win1_3.index ⟨(i 0).val / 1000, ht⟩ (0 : Fin 2) * 1000 ≤ (i 0).val
      ∧ (i 0).val < win1_3.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win1_3.index ⟨(i 0).val / 1000, ht⟩ (1 : Fin 2) * 256 ≤ (i 1).val
      ∧ (i 1).val < win1_3.index ⟨(i 0).val / 1000, ht⟩ (1 : Fin 2) * 256 + 256
    rw [e1]; omega

/-- The result array after the 100 points is `result` of the three operand arrays. -/
theorem result_array (hA : V c main_v45 = A) (hB : V c main_v47 = B) (hW : V c main_v46 = W) :
    (dat1 (F := Ideal) V c).arrAt 3 cfg1.N = result A B W :=
  (dat1 (F := Ideal) V c).arrAt_eq_of_cover 3 (result A B W) (fun t _ => written_block V c A B W hA hB hW t) covered

end Array

/-- Entry `(r, j)` of the second call's result array: the positive part of row `r` of the first operand plus the bias row,
    contracted with column `j` of the weight. -/
theorem relu_rows_at (V : (c : Dev nD) → (b : Ref sig .tc) → Buf (Elt Ideal) ((c : Thread nD τ).loc b)) (c : Dev nD)
    (A : FVec Ideal S100000x256 .f32) (B : FVec Ideal S1x256 .f32) (W : FVec Ideal S256x256 .bf16)
    (hA : V c main_v45 = A) (hB : V c main_v47 = B) (hW : V c main_v46 = W)
    (r : Fin 100000) (j : Fin 256) :
    ((dat1 (F := Ideal) V c).arrAt 3 cfg1.N : Vec Ideal S100000x256 .f32) (ix2 r j)
      = ∑ k : Fin 256, max (A (ix2 r k) + B (ix2 0 k)) (0 : EReal) * W (ix2 k j) := by
  exact congrFun (result_array V c A B W hA hB hW) (ix2 r j)

end Cert.KernelIdeal.ReluRows

end
-- ==== Proof.LibGatherRows2.lean ====
/-
  The host's gather READ AT AN INDEX for a take of ROWS of a table: an operand [N, C] (N rows of C entries), start
  indices [R, 1] and a result [R, C]; the row axis is collapsed and start-indexed, the entry axis is the one offset
  axis (the result's last), the index vector sits on the last axis of the start indices. The lemma is over an
  arbitrary dimension-number record whose fields are fixed by hypotheses, each closed by rfl on a program's own
  record.

  gather_rows: the gather at (a, c), when position a's start index is in range, is the operand at entry c of the
  row that index names (in range nothing is clamped).
-/
import Idealize.ShloMosaic.Lib.ValueIdx
import Idealize.ShloMosaic.Lib.StableHlo.Predicate

noncomputable section

namespace Cert.LibGatherRows2

open Idealize.ShloMosaic Idealize.ShloMosaic.ValueIdx

section Rows
variable {N C R : Nat} (d : GatherDims ⟨2, ![N, C]⟩ ⟨2, ![R, 1]⟩ ⟨2, ![R, C]⟩)
  (hoff : d.offsetDims = [1]) (hcoll : d.collapsedSliceDims = [0]) (hob : d.operandBatchingDims = [])
  (hsim : d.startIndexMap = [0]) (hivd : d.indexVectorDim = 1) (a : Fin R) (c : Fin C)
include hoff hcoll hob hsim hivd

/-- Result position (a, c) reads its start index at (a, 0) of the start indices. -/
theorem siIdx_rows (k : Fin d.startIndexMap.length) : d.siIdx (ix2 a c) k = ix2 a (0 : Fin 1) := by
  obtain ⟨od, cd, ob, sb, sm, iv, ss, wf⟩ := d
  simp only at hoff hcoll hob hsim hivd
  subst hoff hcoll hob hsim hivd
  have hk : k.val = 0 := by
    have := k.isLt
    simpa using this
  funext x
  apply Fin.ext
  match x with
  | ⟨0, _⟩ => rfl
  | ⟨1, _⟩ => exact hk

/-- On the entry axis the offset coordinate is the result's last coordinate. -/
theorem offCoord_rows_one : d.offCoord (ix2 a c) 1 = c.val := by
  obtain ⟨od, cd, ob, sb, sm, iv, ss, wf⟩ := d
  simp only at hoff hcoll hob hsim hivd
  subst hoff hcoll hob hsim hivd
  unfold GatherDims.offCoord
  rw [dif_pos (by simp [GatherDims.sKept, Shape.kept])]
  rfl

end Rows

/-- The gather of ROWS from [N, C], N < 2³¹, at 32-bit start indices [R, 1] (the row axis collapsed and
    start-indexed, the entry axis the one offset axis, the index vector on the last axis), read at (a, c) when
    position a's start index is in range: the operand at entry c of that row. -/
theorem gather_rows {α : Type} {N C R : Nat} (d : GatherDims ⟨2, ![N, C]⟩ ⟨2, ![R, 1]⟩ ⟨2, ![R, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![R, 1]⟩ 32) (hN : N < 2 ^ 31)
    (a : Fin R) (c : Fin C)
    (hr : (idx (ix2 a (0 : Fin 1))).toNat < N) :
    Host.gather d x idx (ix2 a c) = x (ix2 ⟨(idx (ix2 a (0 : Fin 1))).toNat, hr⟩ c) := by
  have hb : ∀ ax, ax ∉ d.operandBatchingDims := by
    intro ax
    rw [hob]
    exact List.not_mem_nil
  have hsl : d.sliceSizes 0 = 1 := d.slice_collapsed 0 (by rw [hcoll]; exact List.mem_singleton.mpr rfl)
  unfold Host.gather
  congr 1
  funext ax
  apply Fin.ext
  revert ax
  refine Fin.forall_fin_two.mpr ⟨?_, ?_⟩
  · show d.start (ix2 a c) idx 0 + d.batchCoord (ix2 a c) 0 + d.offCoord (ix2 a c) 0
      = (idx (ix2 a (0 : Fin 1))).toNat
    rw [d.batchCoord_eq_zero _ _ (hb _),
      d.offCoord_eq_zero _ _ (by rw [GatherDims.mem_sKept, hcoll]; simp)]
    unfold GatherDims.start
    rw [dif_pos (by rw [hsim]; exact List.mem_singleton.mpr rfl), siIdx_rows d hoff hcoll hob hsim hivd, hsl,
      StableHlo.Predicate.toInt_eq_toNat_of_lt (by omega), Int.toNat_natCast]
    show min (idx (ix2 a (0 : Fin 1))).toNat (N - 1) + 0 + 0 = _
    omega
  · show d.start (ix2 a c) idx 1 + d.batchCoord (ix2 a c) 1 + d.offCoord (ix2 a c) 1 = c.val
    rw [d.batchCoord_eq_zero _ _ (hb _), offCoord_rows_one d hoff hcoll hob hsim hivd]
    unfold GatherDims.start
    rw [dif_neg (by rw [hsim]; simp)]
    omega

end Cert.LibGatherRows2

end
-- ==== Proof.EmbRead.lean ====
/-
  The reference's embedding lookup read at a row: when the token of row r is the word of v < 256, nothing wraps and
  nothing is clamped, and row r of the gathered matrix is row v of the embedding.
-/
import proofs.«428986_j44272522887509_1_alg».proof.Proof.RefRead
import proofs.«428986_j44272522887509_1_alg».proof.Proof.LibGatherRows2
import Idealize.ShloMosaic.Lib.StableHlo.Predicate

noncomputable section

namespace Cert.ReferenceIdeal.EmbRead

open Cert.ReferenceIdeal Cert.ReferenceIdeal.Gen Cert.ReferenceIdeal.ReadP
open Idealize.ShloMosaic Idealize.ShloMosaic.ValueIdx

/-- A word below 2³¹ is not negative, so the wrap of negative indices leaves it as it is. -/
theorem wrap_of_small (a n : BitVec 32) (ha : a.toNat < 2 ^ 31) :
    Scalar.select (IntOp.cmpi .slt a 0#32) (IntOp.addi a n) a = a := by
  unfold Scalar.select
  rw [if_neg]
  intro h
  have h' := (StableHlo.Predicate.slt_iff_toNat ha (by decide)).mp h
  simp at h'

/-- The start index of row r is the token itself. -/
theorem start_at (x0 : (⟨S100000x1, .i32⟩ : BufTy).Contents (Elt Ideal)) (r : Fin 100000) (v : Fin 256)
    (hv : x0 (ix2 r 0) = BitVec.ofNat 32 v.val) :
    val_main_v36 (F := Ideal) x0 (ix2 r (0 : Fin 1)) = BitVec.ofNat 32 v.val := by
  have hi : idx_main_v30 (idx_main_v36 (ix2 r (0 : Fin 1))) = ix2 r 0 := funext fun a => Fin.ext (by
    match a with
    | ⟨0, _⟩ => exact Nat.div_one _
    | ⟨1, _⟩ => rfl)
  have h31 : val_main_v31 (F := Ideal) (idx_main_v36 (ix2 r (0 : Fin 1))) = 0#32 := by
    rw [val_main_v31_apply]; rfl
  rw [val_main_v36_apply, val_main_v35_apply, val_main_v32_apply, val_main_v34_apply, val_main_v30_apply, hi, hv, h31]
  exact wrap_of_small _ _ (by rw [BitVec.toNat_ofNat]; have := v.isLt; omega)

/-- Row r of the gathered matrix is row v of the embedding. -/
theorem emb_row (x0 : (⟨S100000x1, .i32⟩ : BufTy).Contents (Elt Ideal)) (x3 : (⟨S256x256, .f32⟩ : BufTy).Contents (Elt Ideal))
    (r : Fin 100000) (k : Fin 256) (v : Fin 256) (hv : x0 (ix2 r 0) = BitVec.ofNat 32 v.val) :
    val_main_v37 (F := Ideal) x0 x3 (ix2 r k) = x3 (ix2 v k) := by
  have hs := start_at x0 r v hv
  have hr : ((val_main_v36 (F := Ideal) x0) (ix2 r (0 : Fin 1))).toNat < 256 := by
    rw [hs, BitVec.toNat_ofNat]; have := v.isLt; omega
  have hrow : (⟨((val_main_v36 (F := Ideal) x0) (ix2 r (0 : Fin 1))).toNat, hr⟩ : Fin 256) = v := Fin.ext (by
    show ((val_main_v36 (F := Ideal) x0) (ix2 r (0 : Fin 1))).toNat = v.val
    rw [hs, BitVec.toNat_ofNat]; have := v.isLt; omega)
  unfold val_main_v37
  rw [Cert.LibGatherRows2.gather_rows gather_S256x256_S100000x1_S100000x256_1_0_n_n_0_1_1256 rfl rfl rfl rfl rfl x3
    (val_main_v36 (F := Ideal) x0) (by decide) r k hr, hrow]

end Cert.ReferenceIdeal.EmbRead

end
-- ==== Proof.TableRead.lean ====
/-
  The table the first call reads: the product of the embedding and the first weight, entry (v, j) the sum over k of
  emb[v, k] · W1[k, j] on the extended reals.
-/
import proofs.«428986_j44272522887509_1_alg».proof.KernelIdeal
import proofs.«428986_j44272522887509_1_alg».proof.Proof.Gen.KernelIdeal
import Idealize.ShloMosaic.Lib.ValueIdx
import Idealize.ShloMosaic.PureOps.Ideal.Laws

noncomputable section

namespace Cert.KernelIdeal.TableRead

open Cert.KernelIdeal Idealize.ShloMosaic Idealize.ShloMosaic.ValueIdx

/-- The left operand is read at the result's row and the contracted position. -/
theorem lhs_table_0 (i : S256x256.Idx) (q : dot_S256x256_S256x256_S256x256_1_0_0_1_n_n.contr.Idx) :
    (dot_S256x256_S256x256_S256x256_1_0_0_1_n_n.lhsIdx i q 0).val = (i 0).val := by
  unfold DotDims.lhsIdx
  rw [dif_neg (show ¬(0 : Fin S256x256.rank) ∈ dot_S256x256_S256x256_S256x256_1_0_0_1_n_n.lhsBatch by decide), dif_pos (show (0 : Fin S256x256.rank) ∈ dot_S256x256_S256x256_S256x256_1_0_0_1_n_n.lhsNonContracting by decide)]
  rfl
theorem lhs_table_1 (i : S256x256.Idx) (q : dot_S256x256_S256x256_S256x256_1_0_0_1_n_n.contr.Idx) :
    (dot_S256x256_S256x256_S256x256_1_0_0_1_n_n.lhsIdx i q 1).val = (q ⟨0, by decide⟩).val :=
  dot_S256x256_S256x256_S256x256_1_0_0_1_n_n.lhsIdx_val_of_single rfl i q
/-- The right operand is read at the contracted position and the result's column. -/
theorem rhs_table_0 (i : S256x256.Idx) (q : dot_S256x256_S256x256_S256x256_1_0_0_1_n_n.contr.Idx) :
    (dot_S256x256_S256x256_S256x256_1_0_0_1_n_n.rhsIdx i q 0).val = (q ⟨0, by decide⟩).val :=
  dot_S256x256_S256x256_S256x256_1_0_0_1_n_n.rhsIdx_val_of_single rfl i q
theorem rhs_table_1 (i : S256x256.Idx) (q : dot_S256x256_S256x256_S256x256_1_0_0_1_n_n.contr.Idx) :
    (dot_S256x256_S256x256_S256x256_1_0_0_1_n_n.rhsIdx i q 1).val = (i 1).val := by
  unfold DotDims.rhsIdx
  rw [dif_neg (show ¬(1 : Fin S256x256.rank) ∈ dot_S256x256_S256x256_S256x256_1_0_0_1_n_n.rhsBatch by decide), dif_pos (show (1 : Fin S256x256.rank) ∈ dot_S256x256_S256x256_S256x256_1_0_0_1_n_n.rhsNonContracting by decide)]
  rfl

/-- Entry (v, j) of the product of two [256, 256] matrices is the sum over k of l[v, k] · r[k, j]. -/
theorem table_at (l r : FVec Ideal S256x256 .f32) (v j : Fin 256) :
    Host.dotGeneral dot_S256x256_S256x256_S256x256_1_0_0_1_n_n none l r (ix2 v j) = ∑ k : Fin 256, l (ix2 v k) * r (ix2 k j) := by
  simp only [Host.dotGeneral]
  rw [Ideal.dotGeneral_apply, ← Equiv.sum_comp (ValueIdx.contrEquiv1 dot_S256x256_S256x256_S256x256_1_0_0_1_n_n 256 rfl rfl).symm]
  refine Finset.sum_congr rfl fun k _ => ?_
  have hk := ValueIdx.contrEquiv1_symm_val dot_S256x256_S256x256_S256x256_1_0_0_1_n_n 256 rfl rfl k
  have el : dot_S256x256_S256x256_S256x256_1_0_0_1_n_n.lhsIdx (ix2 v j) ((ValueIdx.contrEquiv1 dot_S256x256_S256x256_S256x256_1_0_0_1_n_n 256 rfl rfl).symm k) = ix2 v k := funext fun a => Fin.ext (by
    match a with
    | ⟨0, _⟩ => exact lhs_table_0 _ _
    | ⟨1, _⟩ => exact (lhs_table_1 _ _).trans hk)
  have er : dot_S256x256_S256x256_S256x256_1_0_0_1_n_n.rhsIdx (ix2 v j) ((ValueIdx.contrEquiv1 dot_S256x256_S256x256_S256x256_1_0_0_1_n_n 256 rfl rfl).symm k) = ix2 k j := funext fun a => Fin.ext (by
    match a with
    | ⟨0, _⟩ => exact (rhs_table_0 _ _).trans hk
    | ⟨1, _⟩ => exact rhs_table_1 _ _)
  rw [el, er]

end Cert.KernelIdeal.TableRead

end
-- ==== Proof.Bridge.lean ====
/-
  The two calls against the reference's two matrix products, entry by entry on the extended reals.

  First call. With the token of row r the word of v < 256, the one-hot product's row r is row v of the table, and the
  table is the product of the embedding and the first weight: entry (r, j) is the sum over k of emb[v, k] · W1[k, j].
  The reference gathers row v of the embedding first and multiplies by the weight after: the same sum.

  Second call. Entry (r, j) is the sum over k of max (h[r, k] + b1[k]) 0 · W2[k, j], h the first layer: the reference's
  positive part of the biased layer times the second weight, the same sum once the first layers agree.
-/
import proofs.«428986_j44272522887509_1_alg».proof.Proof.KernelChain
import proofs.«428986_j44272522887509_1_alg».proof.Proof.EmbedRows
import proofs.«428986_j44272522887509_1_alg».proof.Proof.ReluRows
import proofs.«428986_j44272522887509_1_alg».proof.Proof.EmbRead
import proofs.«428986_j44272522887509_1_alg».proof.Proof.TableRead
import Idealize.ShloMosaic.Lib.ValueLayout

set_option maxRecDepth 16384

noncomputable section

namespace Cert.Bridge

open Cert.KernelIdeal Cert.KernelIdeal.Gen Cert.KernelIdeal.Chain Cert.Shared
open Idealize.ShloMosaic Idealize.ShloMosaic.TcCoe Idealize.SL.Sem Idealize.ShloMosaic.ValueIdx

variable (m : (ℓ : Loc nD τ sig) → Buf (Elt Ideal) ℓ) (ρ : Dev nD → PrngReg)

/-- The first call's result is the reference's first matrix product, when every token is in range. -/
theorem first_features (c : Dev nD)
    (htok : ∀ r : Fin 100000, ∃ v : Fin 256, ((m ((c : Thread nD τ).loc main_arg0)) : Vec Ideal S100000x1 .i32) (ix2 r 0) = BitVec.ofNat 32 v.val) :
    W4 m ρ c (Proc.devRef .tc main_v32)
      = Cert.ReferenceIdeal.ReadP.val_main_v38 (F := Ideal) (m ((c : Thread nD τ).loc main_arg0)) (m ((c : Thread nD τ).loc main_arg3)) (m ((c : Thread nD τ).loc main_arg4)) := by
  rw [first_result]
  refine funext fun (i : S100000x256.Idx) => ?_
  obtain ⟨r, j, rfl⟩ : ∃ (r : Fin 100000) (j : Fin 256), i = ix2 r j := ⟨i 0, i 1, eq_ix2 i⟩
  obtain ⟨v, hv⟩ := htok r
  have hv' : (V3 m ρ c main_arg0 : Vec Ideal S100000x1 .i32) (ix2 r 0) = BitVec.ofNat 32 v.val := by
    rw [show V3 m ρ c main_arg0 = (m ((c : Thread nD τ).loc main_arg0)) from entry_tok m ρ c]; exact hv
  refine (Cert.KernelIdeal.EmbedRows.embed_rows_at (V3 m ρ) c r j v hv').trans ?_
  rw [show V3 m ρ c main_v31 = _ from entry_tab m ρ c]
  refine (Cert.KernelIdeal.TableRead.table_at _ _ v j).trans ?_
  rw [Cert.ReferenceIdeal.ReadP.val_main_v38_apply]
  refine Finset.sum_congr rfl fun k _ => ?_
  have hl : Cert.ReferenceIdeal.ReadP.lidx_main_v38 (ix2 r j) k = ix2 r k := funext fun a => Fin.ext (by
    match a with
    | ⟨0, _⟩ => rfl
    | ⟨1, _⟩ => rfl)
  have hr : Cert.ReferenceIdeal.ReadP.ridx_main_v38 (ix2 r j) k = ix2 k j := funext fun a => Fin.ext (by
    match a with
    | ⟨0, _⟩ => rfl
    | ⟨1, _⟩ => rfl)
  rw [hl, hr, Cert.ReferenceIdeal.EmbRead.emb_row _ _ r k v hv]

/-- The second call's sum is the reference's second product at an entry: the positive part of the biased layer, entry by
    entry, times the weight, summed over the contracted axis. -/
theorem second_sum (x0 : (⟨Cert.ReferenceIdeal.S100000x1, .i32⟩ : BufTy).Contents (Elt Ideal)) (x1 : (⟨Cert.ReferenceIdeal.S2x800000, .i32⟩ : BufTy).Contents (Elt Ideal))
    (x3 x4 : (⟨Cert.ReferenceIdeal.S256x256, .f32⟩ : BufTy).Contents (Elt Ideal)) (x5 : (⟨Cert.ReferenceIdeal.S256, .f32⟩ : BufTy).Contents (Elt Ideal)) (x6 : (⟨Cert.ReferenceIdeal.S256x256, .f32⟩ : BufTy).Contents (Elt Ideal))
    (A : FVec Ideal S100000x256 .f32) (b : FVec Ideal S256 .f32) (w : FVec Ideal S256x256 .f32)
    (hA : A = Cert.ReferenceIdeal.ReadP.val_main_v51 (F := Ideal) x0 x1 x3 x4) (hb : b = x5) (hw : w = x6)
    (r : Fin 100000) (j : Fin 256) :
    ∑ k : Fin 256, max (A (ix2 r k) + shapeCast S1x256 b shapeCasts_S256_S1x256 (ix2 0 k)) (0 : EReal)
        * truncf .bf16 w bitsLt_bf16_f32 (ix2 k j)
      = Cert.ReferenceIdeal.ReadP.val_main_v56 (F := Ideal) x0 x1 x3 x4 x5 x6 (ix2 r j) := by
  subst hA hb hw
  rw [Cert.ReferenceIdeal.ReadP.val_main_v56_apply]
  refine Finset.sum_congr rfl fun k _ => ?_
  have hl : Cert.ReferenceIdeal.ReadP.lidx_main_v56 (ix2 r j) k = ix2 r k := funext fun a => Fin.ext (by
    match a with
    | ⟨0, _⟩ => rfl
    | ⟨1, _⟩ => rfl)
  have hr : Cert.ReferenceIdeal.ReadP.ridx_main_v56 (ix2 r j) k = ix2 k j := funext fun a => Fin.ext (by
    match a with
    | ⟨0, _⟩ => rfl
    | ⟨1, _⟩ => rfl)
  have hi : Cert.ReferenceIdeal.ReadP.idx_main_v52 (Cert.ReferenceIdeal.ReadP.idx_main_v53 (ix2 r k)) = ix1 k := funext fun a => Fin.ext (by
    match a with
    | ⟨0, _⟩ => rfl)
  have hz : Cert.ReferenceIdeal.ReadP.val_main_call1_cst (F := Ideal) (Cert.ReferenceIdeal.ReadP.idx_main_call1_v0 (ix2 r k)) = (0 : EReal) := Ideal.ofBits_zero_f32
  rw [hl, hr, Cert.ReferenceIdeal.ReadP.val_main_v55_apply, Cert.ReferenceIdeal.ReadP.val_main_v54_apply, Cert.ReferenceIdeal.ReadP.val_main_v53_apply, Cert.ReferenceIdeal.ReadP.val_main_v52_apply, hi,
    Cert.ReferenceIdeal.ReadP.val_main_call1_v0_apply, hz, shapeCast_a_1a_apply]
  rfl

/-- The second call's result is the reference's second matrix product, when every token is in range. -/
theorem second_features (c : Dev nD)
    (htok : ∀ r : Fin 100000, ∃ v : Fin 256, ((m ((c : Thread nD τ).loc main_arg0)) : Vec Ideal S100000x1 .i32) (ix2 r 0) = BitVec.ofNat 32 v.val) :
    W6 m ρ c (Proc.devRef .tc main_v48)
      = Cert.ReferenceIdeal.ReadP.val_main_v56 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  rw [second_result]
  refine funext fun (i : S100000x256.Idx) => ?_
  obtain ⟨r, j, rfl⟩ : ∃ (r : Fin 100000) (j : Fin 256), i = ix2 r j := ⟨i 0, i 1, eq_ix2 i⟩
  have hA : V5 m ρ c main_v45 = Cert.ReferenceIdeal.ReadP.val_main_v51 (F := Ideal) (m ((c : Thread nD τ).loc main_arg0)) (m ((c : Thread nD τ).loc main_arg1)) (m ((c : Thread nD τ).loc main_arg3)) (m ((c : Thread nD τ).loc main_arg4)) := by
    rw [show V5 m ρ c main_v45 = _ from mid_conv m ρ c, first_features m ρ c htok, entry_src, entry_dst, entry_nrm]
    exact (ref_layer1 _ _ _ _).symm
  refine (Cert.KernelIdeal.ReluRows.relu_rows_at (V5 m ρ) c _ _ _ hA (mid_bias m ρ c) (mid_weight m ρ c) r j).trans ?_
  exact second_sum _ _ _ _ _ _ _ _ _ rfl rfl rfl r j

end Cert.Bridge

end
-- ==== Proof.PreRange.lean ====
import proofs.«428986_j44272522887509_1_alg».proof.Pre_finite_inputs
import proofs.«428986_j44272522887509_1_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreRange

open Idealize.ShloMosaic Idealize.ShloMosaic.ValueIdx Cert.Pre_finite_inputs

/-- A word that, read signed, is at least 0 and less than 256 has an unsigned value below 256. -/
theorem toNat_lt_of_signed_range (a : BitVec 32) (h0 : IntOp.cmpi .sge a 0#32 = 1#1) (h1 : IntOp.cmpi .slt a 256#32 = 1#1) :
    a.toNat < 256 := by
  rw [IntOp.cmpi_sge] at h0
  rw [IntOp.cmpi_slt] at h1
  have e0 : (0#32 : BitVec 32).toInt = 0 := by decide
  have e1 : (256#32 : BitVec 32).toInt = 256 := by decide
  rw [e0] at h0
  rw [e1] at h1
  have hlt : a.toNat < 2 ^ 32 := a.isLt
  by_cases hc : 2 * a.toNat < 2 ^ 32
  · rw [BitVec.toInt_eq_toNat_cond, if_pos hc] at h1
    omega
  · rw [BitVec.toInt_eq_toNat_cond, if_neg hc] at h0
    omega

/-- The scalar shape has one index. -/
instance : Subsingleton S_.Idx := ⟨fun a b => funext fun d => d.elim0⟩

/-- The last conjunct of the precondition, read at one row: if the conjunction is 1 then the all-entries reduction is 1,
    so the entry at (r, 0) passes both compares. -/
theorem part1_range {F : FTy → Type} [FloatOps F] (a0 : IVec S100000x1 32) (a7 : FVec F S256 .f32) (v13 : IVec S_ 1)
    (v16 : IVec S256x256 1) (h : fn_part1 (F := F) a0 a7 v13 v16 ix0 = 1#1) (r : Fin 100000) :
    (a0 (ix2 r 0)).toNat < 256 := by
  dsimp only [fn_part1] at h
  have h2 := (IntOp.andi_eq_one.1 h).2
  have h3 := Host.reduce_andi_all _ _ _ _ ix0 h2 (ix2 r 0)
  obtain ⟨h4, h5⟩ := IntOp.andi_eq_one.1 h3
  exact toNat_lt_of_signed_range (a0 (ix2 r 0)) h4 h5

/-- Under the precondition every token is the word of a number below 256: the last conjunct says that, read signed,
    each entry of the token column is at least 0 and less than 256. -/
theorem token_range_of_pre (a0 : IVec S100000x1 32) (a1 : IVec S2x800000 32) (a2 : IVec S10000 32)
    (a3 a4 : FVec Ideal S256x256 .f32) (a5 : FVec Ideal S256 .f32) (a6 : FVec Ideal S256x256 .f32) (a7 : FVec Ideal S256 .f32)
    (h : Cert.Pre_finite_inputs.fn (F := Ideal) a0 a1 a2 a3 a4 a5 a6 a7 = fun _ => 1#1) (r : Fin 100000) :
    ∃ v : Fin 256, a0 (ix2 r 0) = BitVec.ofNat 32 v.val := by
  have h0 := congrFun h ix0
  have hlt : (a0 (ix2 r 0)).toNat < 256 := part1_range (F := Ideal) a0 a7 _ _ h0 r
  refine ⟨⟨(a0 (ix2 r 0)).toNat, hlt⟩, BitVec.eq_of_toNat_eq ?_⟩
  rw [BitVec.toNat_ofNat]
  exact (Nat.mod_eq_of_lt (by omega)).symm

end Cert.PreRange

end
-- ==== Proof.LibTRef.lean ====
/-
  Typed references (a module-local function's operations name their buffers with the value's type): contents carried
  to the buffer's own type and back are unchanged, whatever proof identifies the two types.
-/
import Idealize.ShloMosaic.Lib.StableHlo

noncomputable section

namespace Cert.LibTRef

open Idealize.ShloMosaic Idealize.ShloMosaic.StableHlo

variable {sig : RefSig} {Val : EltTy → Type} {T : BufTy}

/-- To the buffer's type and back. -/
theorem ofBuf_toBuf (x : TRef sig T) (v : T.Contents Val) : x.ofBuf (x.toBuf v) = v := by
  obtain ⟨r, h, hd, hu⟩ := x
  subst h
  rfl

/-- From the buffer's type and back. -/
theorem toBuf_ofBuf (x : TRef sig T) (v : x.ref.ty.Contents Val) : x.toBuf (x.ofBuf v) = v := by
  obtain ⟨r, h, hd, hu⟩ := x
  subst h
  rfl

end Cert.LibTRef

end
-- ==== Proof.RefChain.lean ====
/-
  The reference's run, read stretch by stretch. Its @main is one line of 117 host operations. Cut at the values the
  certificate names — the edge data, the first matrix product, the first layer, the hidden stage, the second layer,
  the readout — each stretch writes its value as a function of what the stretch before left, and leaves the rest alone.
  Composed, the result buffer ends at the last stage of the arguments.
-/
import proofs.«428986_j44272522887509_1_alg».proof.Proof.RefRun
import proofs.«428986_j44272522887509_1_alg».proof.Proof.Shared
import proofs.«428986_j44272522887509_1_alg».proof.Proof.LibTRef

set_option maxRecDepth 16384

noncomputable section

namespace Cert.ReferenceIdeal.RefChain

open Cert.ReferenceIdeal Cert.ReferenceIdeal.Gen Cert.ReferenceIdeal.RunP Cert.ReferenceIdeal.ReadP Cert.Shared
open Idealize.ShloMosaic Idealize.ShloMosaic.TcCoe Idealize.SL.Sem Idealize.ShloMosaic.StableHlo

variable {F : FTy → Type} [FloatOps F]

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The stretches -/

/-- Through the edge weights. -/
abbrev cA : List (HloOp τ sig (Elt F)) := (ops (F := F)).take 40
/-- Through the first matrix product. -/
abbrev cB : List (HloOp τ sig (Elt F)) := ((ops (F := F)).drop 40).take 11
/-- Through the first layer. -/
abbrev cC : List (HloOp τ sig (Elt F)) := ((ops (F := F)).drop 51).take 16
/-- Through the hidden stage. -/
abbrev cD : List (HloOp τ sig (Elt F)) := ((ops (F := F)).drop 67).take 7
/-- Through the second layer. -/
abbrev cE : List (HloOp τ sig (Elt F)) := ((ops (F := F)).drop 74).take 16
/-- Through the masked rows. -/
abbrev cF : List (HloOp τ sig (Elt F)) := ((ops (F := F)).drop 90).take 12
/-- The row-wise log-softmax. -/
abbrev cG : List (HloOp τ sig (Elt F)) := (ops (F := F)).drop 102

theorem ops_cut : (ops (F := F)) = cA ++ (cB ++ (cC ++ (cD ++ (cE ++ (cF ++ cG))))) := rfl

/-- A stretch as its literal list of operations. -/
macro "open_chunk" : tactic =>
  `(tactic| simp only [cA, cB, cC, cD, cE, cF, cG, ops, List.take_succ_cons, List.take_zero, List.drop_succ_cons, List.drop_zero])

/-! ## What each stretch writes -/

theorem A_src (W : Valuation τ sig (Elt F)) : after cA W (Proc.devRef .tc main_v3) = val_main_v3 (F := F) (W (Proc.devRef .tc main_arg1)) := by
  open_chunk; after_results <;> rfl
theorem A_dst (W : Valuation τ sig (Elt F)) : after cA W (Proc.devRef .tc main_v6) = val_main_v6 (F := F) (W (Proc.devRef .tc main_arg1)) := by
  open_chunk; after_results <;> rfl
set_option maxHeartbeats 20000000 in
theorem A_nrm (W : Valuation τ sig (Elt F)) : after cA W (Proc.devRef .tc main_v29) = val_main_v29 (F := F) (W (Proc.devRef .tc main_arg1)) := by
  open_chunk; after_results <;> rfl

theorem B_feat (W : Valuation τ sig (Elt F)) :
    after cB W (Proc.devRef .tc main_v38) = val_main_v38 (F := F) (W (Proc.devRef .tc main_arg0)) (W (Proc.devRef .tc main_arg3)) (W (Proc.devRef .tc main_arg4)) := by
  open_chunk; after_results <;> rfl

set_option maxHeartbeats 4000000 in
theorem C_layer (W : Valuation τ sig (Elt F)) :
    after cC W (Proc.devRef .tc main_v51) = layer (W (Proc.devRef .tc main_v38)) (W (Proc.devRef .tc main_v3)) (W (Proc.devRef .tc main_v6)) (W (Proc.devRef .tc main_v29)) := by
  open_chunk; after_results_simp <;> rfl

set_option maxHeartbeats 4000000 in
theorem D_hidden (W : Valuation τ sig (Elt F)) :
    after cD W (Proc.devRef .tc main_v56) = hidden (W (Proc.devRef .tc main_v51)) (W (Proc.devRef .tc main_arg5)) (W (Proc.devRef .tc main_arg6)) := by
  open_chunk; after_results_simp
  simp only [Cert.LibTRef.ofBuf_toBuf]
  rfl

set_option maxHeartbeats 4000000 in
theorem E_layer (W : Valuation τ sig (Elt F)) :
    after cE W (Proc.devRef .tc main_v69) = layer (W (Proc.devRef .tc main_v56)) (W (Proc.devRef .tc main_v3)) (W (Proc.devRef .tc main_v6)) (W (Proc.devRef .tc main_v29)) := by
  open_chunk; after_results_simp <;> rfl

set_option maxHeartbeats 4000000 in
theorem F_picked (W : Valuation τ sig (Elt F)) :
    after cF W (Proc.devRef .tc main_v79) = picked (W (Proc.devRef .tc main_v69)) (W (Proc.devRef .tc main_arg7)) (W (Proc.devRef .tc main_arg2)) := by
  open_chunk; after_results_simp <;> rfl

set_option maxHeartbeats 4000000 in
theorem G_softmax (W : Valuation τ sig (Elt F)) :
    after cG W (Proc.devRef .tc main_v80) = logSoftmax (W (Proc.devRef .tc main_v79)) := by
  open_chunk; after_results_simp
  simp only [Cert.LibTRef.ofBuf_toBuf]
  rfl

/-! ## What each stretch leaves alone -/

theorem keepA_arg0 (W : Valuation τ sig (Elt F)) : after cA W (Proc.devRef .tc main_arg0) = W (Proc.devRef .tc main_arg0) := by
  open_chunk; after_results
theorem keepA_arg2 (W : Valuation τ sig (Elt F)) : after cA W (Proc.devRef .tc main_arg2) = W (Proc.devRef .tc main_arg2) := by
  open_chunk; after_results
theorem keepA_arg3 (W : Valuation τ sig (Elt F)) : after cA W (Proc.devRef .tc main_arg3) = W (Proc.devRef .tc main_arg3) := by
  open_chunk; after_results
theorem keepA_arg4 (W : Valuation τ sig (Elt F)) : after cA W (Proc.devRef .tc main_arg4) = W (Proc.devRef .tc main_arg4) := by
  open_chunk; after_results
theorem keepA_arg5 (W : Valuation τ sig (Elt F)) : after cA W (Proc.devRef .tc main_arg5) = W (Proc.devRef .tc main_arg5) := by
  open_chunk; after_results
theorem keepA_arg6 (W : Valuation τ sig (Elt F)) : after cA W (Proc.devRef .tc main_arg6) = W (Proc.devRef .tc main_arg6) := by
  open_chunk; after_results
theorem keepA_arg7 (W : Valuation τ sig (Elt F)) : after cA W (Proc.devRef .tc main_arg7) = W (Proc.devRef .tc main_arg7) := by
  open_chunk; after_results

theorem keepB_v3 (W : Valuation τ sig (Elt F)) : after cB W (Proc.devRef .tc main_v3) = W (Proc.devRef .tc main_v3) := by
  open_chunk; after_results
theorem keepB_v6 (W : Valuation τ sig (Elt F)) : after cB W (Proc.devRef .tc main_v6) = W (Proc.devRef .tc main_v6) := by
  open_chunk; after_results
theorem keepB_v29 (W : Valuation τ sig (Elt F)) : after cB W (Proc.devRef .tc main_v29) = W (Proc.devRef .tc main_v29) := by
  open_chunk; after_results
theorem keepB_arg2 (W : Valuation τ sig (Elt F)) : after cB W (Proc.devRef .tc main_arg2) = W (Proc.devRef .tc main_arg2) := by
  open_chunk; after_results
theorem keepB_arg5 (W : Valuation τ sig (Elt F)) : after cB W (Proc.devRef .tc main_arg5) = W (Proc.devRef .tc main_arg5) := by
  open_chunk; after_results
theorem keepB_arg6 (W : Valuation τ sig (Elt F)) : after cB W (Proc.devRef .tc main_arg6) = W (Proc.devRef .tc main_arg6) := by
  open_chunk; after_results
theorem keepB_arg7 (W : Valuation τ sig (Elt F)) : after cB W (Proc.devRef .tc main_arg7) = W (Proc.devRef .tc main_arg7) := by
  open_chunk; after_results

theorem keepC_v3 (W : Valuation τ sig (Elt F)) : after cC W (Proc.devRef .tc main_v3) = W (Proc.devRef .tc main_v3) := by
  open_chunk; after_results
theorem keepC_v6 (W : Valuation τ sig (Elt F)) : after cC W (Proc.devRef .tc main_v6) = W (Proc.devRef .tc main_v6) := by
  open_chunk; after_results
theorem keepC_v29 (W : Valuation τ sig (Elt F)) : after cC W (Proc.devRef .tc main_v29) = W (Proc.devRef .tc main_v29) := by
  open_chunk; after_results
theorem keepC_arg2 (W : Valuation τ sig (Elt F)) : after cC W (Proc.devRef .tc main_arg2) = W (Proc.devRef .tc main_arg2) := by
  open_chunk; after_results
theorem keepC_arg5 (W : Valuation τ sig (Elt F)) : after cC W (Proc.devRef .tc main_arg5) = W (Proc.devRef .tc main_arg5) := by
  open_chunk; after_results
theorem keepC_arg6 (W : Valuation τ sig (Elt F)) : after cC W (Proc.devRef .tc main_arg6) = W (Proc.devRef .tc main_arg6) := by
  open_chunk; after_results
theorem keepC_arg7 (W : Valuation τ sig (Elt F)) : after cC W (Proc.devRef .tc main_arg7) = W (Proc.devRef .tc main_arg7) := by
  open_chunk; after_results

theorem keepD_v3 (W : Valuation τ sig (Elt F)) : after cD W (Proc.devRef .tc main_v3) = W (Proc.devRef .tc main_v3) := by
  open_chunk; after_results
theorem keepD_v6 (W : Valuation τ sig (Elt F)) : after cD W (Proc.devRef .tc main_v6) = W (Proc.devRef .tc main_v6) := by
  open_chunk; after_results
theorem keepD_v29 (W : Valuation τ sig (Elt F)) : after cD W (Proc.devRef .tc main_v29) = W (Proc.devRef .tc main_v29) := by
  open_chunk; after_results
theorem keepD_arg2 (W : Valuation τ sig (Elt F)) : after cD W (Proc.devRef .tc main_arg2) = W (Proc.devRef .tc main_arg2) := by
  open_chunk; after_results
theorem keepD_arg7 (W : Valuation τ sig (Elt F)) : after cD W (Proc.devRef .tc main_arg7) = W (Proc.devRef .tc main_arg7) := by
  open_chunk; after_results

theorem keepE_arg2 (W : Valuation τ sig (Elt F)) : after cE W (Proc.devRef .tc main_arg2) = W (Proc.devRef .tc main_arg2) := by
  open_chunk; after_results
theorem keepE_arg7 (W : Valuation τ sig (Elt F)) : after cE W (Proc.devRef .tc main_arg7) = W (Proc.devRef .tc main_arg7) := by
  open_chunk; after_results

/-! ## The whole line -/

/-- The result buffer after the whole line is the last stage of the arguments. -/
theorem value (V : Valuation τ sig (Elt F)) :
    after (ops (F := F)) V (Proc.devRef .tc main_v80)
      = val_main_v80 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  have e : after (ops (F := F)) V = after cG (after cF (after cE (after cD (after cC (after cB (after cA V)))))) := by
    conv_lhs => rw [ops_cut]
    simp only [after_append]
  rw [e, G_softmax, F_picked, E_layer, keepE_arg2, keepE_arg7, D_hidden, keepD_v3, keepD_v6, keepD_v29, keepD_arg2, keepD_arg7,
    C_layer, keepC_v3, keepC_v6, keepC_v29, keepC_arg2, keepC_arg5, keepC_arg6, keepC_arg7,
    B_feat, keepB_v3, keepB_v6, keepB_v29, keepB_arg2, keepB_arg5, keepB_arg6, keepB_arg7,
    A_src, A_dst, A_nrm, keepA_arg0, keepA_arg2, keepA_arg3, keepA_arg4, keepA_arg5, keepA_arg6, keepA_arg7,
    ref_result, ref_layer2, ref_hidden, ref_layer1] <;> rfl

end Cert.ReferenceIdeal.RefChain

end
-- ==== Proof.RefMain.lean ====
/-
  The reference's run: every weakly fair execution of its @main terminates, nothing faulting, with the result buffer at
  the last stage of the arguments (the line read stretch by stretch) and the arguments as launched (no operation writes
  one).
-/
import proofs.«428986_j44272522887509_1_alg».proof.Proof.RefChain

noncomputable section

namespace Cert.ReferenceIdeal.RefChain

open Cert.ReferenceIdeal Cert.ReferenceIdeal.Gen Cert.ReferenceIdeal.RunP Cert.ReferenceIdeal.ReadP Cert.Shared
open Idealize.ShloMosaic Idealize.ShloMosaic.TcCoe Idealize.SL.Sem Idealize.ShloMosaic.StableHlo

variable {F : FTy → Type} [FloatOps F]

set_option maxRecDepth 8192 in
set_option maxHeartbeats 46800000 in
/-- On every device, from any memory with zero counters: every weakly fair execution of the reference's @main
    terminates with the result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v80)
        = val_main_v80 (F := F) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v80).trans (value (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.RefChain

end
-- ==== Proof.KernelTail.lean ====
/-
  The idealized kernel's last host stretch: the readout of one more layer over the second call's result, with the edge
  data, the bias and the mask read back to the launch memory.
-/
import proofs.«428986_j44272522887509_1_alg».proof.Proof.KernelChain
import proofs.«428986_j44272522887509_1_alg».proof.Proof.LibTRef

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.Shared

variable {F : FTy → Type} [FloatOps F]
variable (m : (ℓ : Loc nD τ sig) → Buf (Elt F) ℓ) (ρ : Dev nD → PrngReg)

set_option maxHeartbeats 4000000 in
/-- After the second call: the masked rows of one layer over its result, plus the bias. -/
theorem tail_picked (c : Dev nD) :
    W7 m ρ c (Proc.devRef .tc main_v71)
      = picked (layer (W6 m ρ c (Proc.devRef .tc main_v48)) (W6 m ρ c (Proc.devRef .tc main_v3)) (W6 m ρ c (Proc.devRef .tc main_v6))
          (W6 m ρ c (Proc.devRef .tc main_v29))) (W6 m ρ c (Proc.devRef .tc main_arg7)) (W6 m ρ c (Proc.devRef .tc main_arg2)) := by
  show after hostOps2 (W6 m ρ c) (Proc.devRef .tc main_v71) = _
  generalize W6 m ρ c = U
  dsimp only [hostOps2]
  after_results_simp <;> rfl

set_option maxHeartbeats 4000000 in
/-- The last stretch: the row-wise log-softmax of the masked rows. -/
theorem tail_softmax (c : Dev nD) :
    W8 m ρ c (Proc.devRef .tc main_v72) = logSoftmax (W7 m ρ c (Proc.devRef .tc main_v71)) := by
  show after hostOps2_1 (W7 m ρ c) (Proc.devRef .tc main_v72) = _
  generalize W7 m ρ c = U
  dsimp only [hostOps2_1]
  after_results_simp
  simp only [Cert.LibTRef.ofBuf_toBuf]
  rfl

/-- The result: the readout of one layer over the second call's result, over the buffers as the second call leaves them. -/
theorem result_eq (c : Dev nD) :
    W8 m ρ c (Proc.devRef .tc main_v72)
      = readout (layer (W6 m ρ c (Proc.devRef .tc main_v48)) (W6 m ρ c (Proc.devRef .tc main_v3)) (W6 m ρ c (Proc.devRef .tc main_v6))
          (W6 m ρ c (Proc.devRef .tc main_v29))) (W6 m ρ c (Proc.devRef .tc main_arg7)) (W6 m ρ c (Proc.devRef .tc main_arg2)) := by
  rw [tail_softmax, tail_picked]
  rfl

/-- The second bias is as launched. -/
theorem late_bias (c : Dev nD) : W6 m ρ c (Proc.devRef .tc main_arg7) = m ((c : Thread nD τ).loc main_arg7) := by
  have h : W5 m ρ c (Proc.devRef .tc main_arg7) = W4 m ρ c (Proc.devRef .tc main_arg7) := by
    dsimp only [W5, hostOps1]; after_results
  rw [W6_of_ne m ρ c main_arg7 (by decide), h, W4_of_ne m ρ c main_arg7 (by decide)]
  dsimp only [W3, W2, W1, W0, hostOps0, hostOps0_1, hostOps0_2]
  after_results <;> rfl

/-- The mask is as launched. -/
theorem late_mask (c : Dev nD) : W6 m ρ c (Proc.devRef .tc main_arg2) = m ((c : Thread nD τ).loc main_arg2) := by
  have h : W5 m ρ c (Proc.devRef .tc main_arg2) = W4 m ρ c (Proc.devRef .tc main_arg2) := by
    dsimp only [W5, hostOps1]; after_results
  rw [W6_of_ne m ρ c main_arg2 (by decide), h, W4_of_ne m ρ c main_arg2 (by decide)]
  dsimp only [W3, W2, W1, W0, hostOps0, hostOps0_1, hostOps0_2]
  after_results <;> rfl

/-- The result over the launch memory: the readout of one layer over the second call's result. -/
theorem result (c : Dev nD) :
    W8 m ρ c (Proc.devRef .tc main_v72)
      = readout (layer (W6 m ρ c (Proc.devRef .tc main_v48))
          (Cert.ReferenceIdeal.ReadP.val_main_v3 (F := F) (m ((c : Thread nD τ).loc main_arg1)))
          (Cert.ReferenceIdeal.ReadP.val_main_v6 (F := F) (m ((c : Thread nD τ).loc main_arg1)))
          (Cert.ReferenceIdeal.ReadP.val_main_v29 (F := F) (m ((c : Thread nD τ).loc main_arg1))))
        (m ((c : Thread nD τ).loc main_arg7)) (m ((c : Thread nD τ).loc main_arg2)) := by
  rw [result_eq, late_src, late_dst, late_nrm, entry_src, entry_dst, entry_nrm, late_bias, late_mask]

end Cert.KernelIdeal.Chain

end
-- ==== Proof.lean ====
/-
  The certificate of a two-layer graph convolution whose two dense stages are kernel calls.

  Both programs compute, for node tokens x, edges, a mask, an embedding emb and weights W1, b1, W2, b2:
  log_softmax over the masked rows of  A · (relu (A · H1 + b1) · W2) + b2,  where A is the normalized adjacency with
  self loops (a gather of rows at the sources, a scaling by the edge weight, a sum into the destinations) and H1 is the
  first feature matrix. The reference takes H1 = emb[x] · W1. The kernel takes H1 = onehot(x) · (emb · W1) in its first
  call and fuses the bias, the positive part and the product with W2 in its second; everything else is the same host
  operations on both sides.

  The statement's precondition carries one conjunct beyond finiteness: every token lies in [0, 256), the range of the
  table it indexes. Under it row r of the one-hot product is row x[r] of emb · W1, entry by entry the reference's
  sum over k of emb[x[r], k] · W1[k, j]; the second call's entry (r, j) is the sum over k of
  max (h[r, k] + b1[k]) 0 · W2[k, j], the reference's second product. No law of the extended reals beyond 0 · a = 0,
  1 · a = a and the sums' own definitions is used, so finiteness is never opened.

  The frames of the two kernel programs are the generated ones; the reference's frame and value are its run read stretch by
  stretch over its stages; the kernel's value is its frame's run with the result buffer named, read back through the host
  stretches and the two calls.
-/
import proofs.«428986_j44272522887509_1_alg».proof.Defs
import proofs.«428986_j44272522887509_1_alg».proof.Proof.Gen.Kernel
import proofs.«428986_j44272522887509_1_alg».proof.Proof.Gen.Kernel.Skeleton
import proofs.«428986_j44272522887509_1_alg».proof.Proof.Gen.Kernel.Launch
import proofs.«428986_j44272522887509_1_alg».proof.Proof.Gen.Kernel.Points
import proofs.«428986_j44272522887509_1_alg».proof.Proof.Gen.Kernel.Frame
import proofs.«428986_j44272522887509_1_alg».proof.Proof.Gen.KernelIdeal
import proofs.«428986_j44272522887509_1_alg».proof.Proof.Gen.KernelIdeal.Skeleton
import proofs.«428986_j44272522887509_1_alg».proof.Proof.Gen.KernelIdeal.Launch
import proofs.«428986_j44272522887509_1_alg».proof.Proof.Gen.KernelIdeal.Points
import proofs.«428986_j44272522887509_1_alg».proof.Proof.Gen.KernelIdeal.Frame
import proofs.«428986_j44272522887509_1_alg».proof.Proof.Gen.ReferenceIdeal
import proofs.«428986_j44272522887509_1_alg».proof.Proof.Gen.Pre_finite_inputs
import proofs.«428986_j44272522887509_1_alg».proof.Proof.KernelRun
import proofs.«428986_j44272522887509_1_alg».proof.Proof.KernelChain
import proofs.«428986_j44272522887509_1_alg».proof.Proof.Bridge
import proofs.«428986_j44272522887509_1_alg».proof.Proof.PreRange
import proofs.«428986_j44272522887509_1_alg».proof.Proof.RefMain
import proofs.«428986_j44272522887509_1_alg».proof.Proof.KernelTail
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.RefChain.run (F := Ideal) m ρ)

/-- The ideal pass rewrote nothing. -/
theorem preserves : Cert.preserves_Kernel_KernelIdeal := trivial

/-- Both runs end with the readout of the second layer; the second layers agree because the two calls' results are the
    reference's two matrix products, the tokens being in range. -/
theorem algebraic : Cert.algebraic_KernelIdeal_ReferenceIdeal := by
  intro m ρ m' ρ' hpre hagree
  refine ⟨fun c => Cert.KernelIdeal.Gen.W8 m ρ c (Proc.devRef .tc Cert.KernelIdeal.main_v72),
    Cert.KernelIdeal.Gen.RunK.run_main m ρ, ?_⟩
  refine (θ_run Cert.ReferenceIdeal.defs _ _).mono (fun _ h c => ⟨(h c).1.trans ?_, (h c).2⟩)
    (Cert.ReferenceIdeal.RefChain.run (F := Ideal) m' ρ')
  have htok := fun r => Cert.PreRange.token_range_of_pre _ _ _ _ _ _ _ _ (hpre c) r
  rw [(hagree c).1, (hagree c).2.1, (hagree c).2.2.1, (hagree c).2.2.2.1,
    (hagree c).2.2.2.2.1, (hagree c).2.2.2.2.2.1, (hagree c).2.2.2.2.2.2.1, (hagree c).2.2.2.2.2.2.2,
    Cert.Shared.ref_result, Cert.Shared.ref_layer2, ← Cert.Bridge.second_features m ρ c htok]
  exact (Cert.KernelIdeal.Chain.result m ρ c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
